-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x3 : Shape := ⟨3, ![32, 2048, 3]⟩
abbrev S32x2048 : Shape := ⟨2, ![32, 2048]⟩
abbrev S_ : Shape := ⟨0, ![]⟩

class Facts : Prop where
  bcast_S_S32x2048x3 : S_.BroadcastsInDim S32x2048x3 (![] : Fin 0 → Fin S32x2048x3.rank)
  reducesTo_S32x2048x3_S_d0_1_2 : S32x2048x3.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_

variable [Facts]

def fn_part1 {F : FTy → Type} [FloatOps F] (main_v13 : IVec S_ 1) (main_v16 : IVec S32x2048 1) : IVec S_ 1 :=
  let main_c_5 : IVec S_ 1 := constantI S_ 1 1#1
  let main_v17 : IVec S_ 1 := (fun x v => Host.reduce IntOp.andi x v reducesTo_S32x2048_S_d0_1 h_S_) main_v16 main_c_5
  let main_v18 : IVec S_ 1 := andi main_v13 main_v17
  main_v18

def fn {F : FTy → Type} [FloatOps F] (main_arg0 : FVec F S32x2048x3 .f32) (main_arg1 : FVec F S32x2048x3 .f32) (main_arg2 : FVec F S32x2048 .f32) (main_arg3 : FVec F S32x2048 .f32) : IVec S_ 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_c : IVec S_ 1 := constantI S_ 1 1#1
  let main_v3 : IVec S_ 1 := (fun x v => Host.reduce IntOp.andi x v reducesTo_S32x2048x3_S_d0_1_2 h_S_) main_v2 main_c
  let main_v4 : FVec F S32x2048x3 .f32 := Host.absf main_arg1
  let main_cst_0 : FVec F S_ .f32 := constant S_ .f32 0x7F800000#32
  let main_v5 : FVec F S32x2048x3 .f32 := broadcastInDim S32x2048x3 ![] bcast_S_S32x2048x3 main_cst_0
  let main_v6 : IVec S32x2048x3 1 := cmpf .olt main_v4 main_v5
  let main_c_1 : IVec S_ 1 := constantI S_ 1 1#1
  let main_v7 : IVec S_ 1 := (fun x v => Host.reduce IntOp.andi x v reducesTo_S32x2048x3_S_d0_1_2 h_S_) main_v6 main_c_1
  let main_v8 : IVec S_ 1 := andi main_v3 main_v7
  let main_v9 : FVec F S32x2048 .f32 := Host.absf main_arg2
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  let main_v14 : FVec F S32x2048 .f32 := Host.absf main_arg3
  let main_cst_4 : FVec F S_ .f32 := constant S_ .f32 0x7F800000#32
  let main_v15 : FVec F S32x2048 .f32 := broadcastInDim S32x2048 ![] bcast_S_S32x2048 main_cst_4
  let main_v16 : IVec S32x2048 1 := cmpf .olt main_v14 main_v15
  fn_part1 (F := F) main_v13 main_v16
-- ==== Kernel.lean ====
abbrev S32x2048x3 : Shape := ⟨3, ![32, 2048, 3]⟩
abbrev S32x2048 : Shape := ⟨2, ![32, 2048]⟩
abbrev S32x2048x1 : Shape := ⟨3, ![32, 2048, 1]⟩
abbrev S32x1x1 : Shape := ⟨3, ![32, 1, 1]⟩
abbrev S1x2048x3 : Shape := ⟨3, ![1, 2048, 3]⟩
abbrev S1x512x3 : Shape := ⟨3, ![1, 512, 3]⟩
abbrev S1x2048x1 : Shape := ⟨3, ![1, 2048, 1]⟩
abbrev S1x1x1 : Shape := ⟨3, ![1, 1, 1]⟩
abbrev S2048x1 : Shape := ⟨2, ![2048, 1]⟩
abbrev S1x1 : Shape := ⟨2, ![1, 1]⟩
abbrev S1 : Shape := ⟨1, ![1]⟩
abbrev S2048x3 : Shape := ⟨2, ![2048, 3]⟩
abbrev S512x3 : Shape := ⟨2, ![512, 3]⟩
abbrev S2048 : Shape := ⟨1, ![2048]⟩
abbrev S512 : Shape := ⟨1, ![512]⟩
abbrev S512x1 : Shape := ⟨2, ![512, 1]⟩
abbrev S1x512 : Shape := ⟨2, ![1, 512]⟩
abbrev S3x512 : Shape := ⟨2, ![3, 512]⟩
abbrev S2048x512 : Shape := ⟨2, ![2048, 512]⟩
abbrev S32 : Shape := ⟨1, ![32]⟩
abbrev S_ : Shape := ⟨0, ![]⟩

abbrev nBuf : Space → Nat
  | .hbm => 12
  | .vmem => 13
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x2048, .f32⟩
  | .hbm, ⟨3, _⟩ => ⟨S32x2048, .f32⟩
  | .hbm, ⟨4, _⟩ => ⟨S32x2048x1, .f32⟩
  | .hbm, ⟨5, _⟩ => ⟨S32x2048x1, .f32⟩
  | .hbm, ⟨6, _⟩ => ⟨S32x1x1, .f32⟩
  | .hbm, ⟨7, _⟩ => ⟨S32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x512x3, .f32⟩
  | .local _ .vmem, ⟨3, _⟩ => ⟨S1x512x3, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x1, .f32⟩
  | .local _ .vmem, ⟨7, _⟩ => ⟨S1x2048x1, .f32⟩
  | .local _ .vmem, ⟨8, _⟩ => ⟨S1x1x1, .f32⟩
  | .local _ .vmem, ⟨9, _⟩ => ⟨S1x1x1, .f32⟩
  | .local _ .vmem, ⟨10, _⟩ => ⟨S2048x1, .f32⟩
  | .local _ .vmem, ⟨11, _⟩ => ⟨S1x1, .f32⟩
  | .local _ .vmem, ⟨12, _⟩ => ⟨S1x1, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_21 : BitVec 32 := 0#32
  let v42 : BitVec 1 := Scalar.cmpi .ne v41 c0_i32_21
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S32x2048_S32x2048x1_0_1 : S32x2048.BroadcastsInDim S32x2048x1 (![0, 1] : Fin 2 → Fin S32x2048x1.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  reduces_S2048x1_S1 : S2048x1.Reduces [0] S1
  shapeCasts_S1_S1x1 : S1.ShapeCasts S1x1
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S2048x3_S2048 : S2048x3.Reduces [1] S2048
  shapeCasts_S2048_S2048x1 : S2048.ShapeCasts S2048x1
  reduces_S512x3_S512 : S512x3.Reduces [1] S512
  shapeCasts_S512_S512x1 : S512.ShapeCasts S512x1
  transposes_S512x1_p1_0_S1x512 : S512x1.Transposes [1, 0] S1x512
  transposes_S512x3_p1_0_S3x512 : S512x3.Transposes [1, 0] S3x512
  broadcasts_S2048x1_S2048x512 : S2048x1.Broadcasts S2048x512
  broadcasts_S1x512_S2048x512 : S1x512.Broadcasts S2048x512
  reduces_S2048x512_S2048 : S2048x512.Reduces [1] S2048
  reduces_S2048x512_S512 : S2048x512.Reduces [0] S512
  shapeCasts_S512_S1x512 : S512.ShapeCasts S1x512
  reduces_S1x512_S1 : S1x512.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S32x1x1_S32 : S32x1x1.ShapeCasts S32
  reducesTo_S32_S_d0 : S32.ReducesTo [0] S_
  h_S_ : 0 < S_.numel
  dot_S2048x3_S3x512_S2048x512_1_0_0_1_n_n_wf : DotDims.WF S2048x3 S3x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S32x2048x3.size a
  hwx0_0 : ∀ i : grid0.Coords, EltTy.bits .f32 = 32 ∨ (Rect.block (s := S32x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S32x2048x3.size a
  hwx0_1 : ∀ i : grid0.Coords, EltTy.bits .f32 = 32 ∨ (Rect.block (s := S32x2048x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S32x2048x1.size a
  hwx0_2 : ∀ i : grid0.Coords, EltTy.bits .f32 = 32 ∨ (Rect.block (s := S32x2048x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S32x2048x1.size a
  hwx0_3 : ∀ i : grid0.Coords, EltTy.bits .f32 = 32 ∨ (Rect.block (s := S32x2048x1) S1x2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)

variable [Facts₀]

def dot_S2048x3_S3x512_S2048x512_1_0_0_1_n_n : DotDims S2048x3 S3x512 S2048x512 where
  lhsContracting := [1]
  rhsContracting := [0]
  lhsNonContracting := [0]
  rhsNonContracting := [1]
  lhsBatch := []
  rhsBatch := []
  wf := dot_S2048x3_S3x512_S2048x512_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048x3 : Shape := ⟨3, ![32, 2048, 3]⟩
abbrev S32x2048 : Shape := ⟨2, ![32, 2048]⟩
abbrev S_ : Shape := ⟨0, ![]⟩
abbrev S32x2048x2048 : Shape := ⟨3, ![32, 2048, 2048]⟩
abbrev S32x2048x1 : Shape := ⟨3, ![32, 2048, 1]⟩
abbrev S32x1x2048 : Shape := ⟨3, ![32, 1, 2048]⟩
abbrev S32 : Shape := ⟨1, ![32]⟩

abbrev nBuf : Space → Nat
  | .hbm => 88
  | .vmem => 0
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x2048, .f32⟩
  | .hbm, ⟨3, _⟩ => ⟨S32x2048, .f32⟩
  | .hbm, ⟨4, _⟩ => ⟨S32x2048x3, .f32⟩
  | .hbm, ⟨5, _⟩ => ⟨S_, .f32⟩
  | .hbm, ⟨6, _⟩ => ⟨S32x2048, .f32⟩
  | .hbm, ⟨7, _⟩ => ⟨S32x2048x3, .f32⟩
  | .hbm, ⟨8, _⟩ => ⟨S_, .f32⟩
  | .hbm, ⟨9, _⟩ => ⟨S32x2048, .f32⟩
  | .hbm, ⟨10, _⟩ => ⟨S32x2048x2048, .f32⟩
  | .hbm, ⟨11, _⟩ => ⟨S32x2048x1, .f32⟩
  | .hbm, ⟨12, _⟩ => ⟨S32x1x2048, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048x2048, .f32⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32x2048x2048, .f32⟩
  | .hbm, ⟨22, _⟩ => ⟨S32x2048x2048, .f32⟩
  | .hbm, ⟨23, _⟩ => ⟨S_, .f32⟩
  | .hbm, ⟨24, _⟩ => ⟨S32x2048, .f32⟩
  | .hbm, ⟨25, _⟩ => ⟨S_, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32x2048, .f32⟩
  | .hbm, ⟨32, _⟩ => ⟨S_, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32x2048, .f32⟩
  | .hbm, ⟨38, _⟩ => ⟨S_, .f32⟩
  | .hbm, ⟨39, _⟩ => ⟨S32x2048, .f32⟩
  | .hbm, ⟨40, _⟩ => ⟨S32x2048, .f32⟩
  | .hbm, ⟨41, _⟩ => ⟨S32x2048, .f32⟩
  | .hbm, ⟨42, _⟩ => ⟨S32x2048, .f32⟩
  | .hbm, ⟨43, _⟩ => ⟨S32x2048, .i1⟩
  | .hbm, ⟨44, _⟩ => ⟨S32x2048, .f32⟩
  | .hbm, ⟨45, _⟩ => ⟨S32x2048, .f32⟩
  | .hbm, ⟨46, _⟩ => ⟨S32x2048, .f32⟩
  | .hbm, ⟨47, _⟩ => ⟨S32x2048, .f32⟩
  | .hbm, ⟨48, _⟩ => ⟨S32x2048, .f32⟩
  | .hbm, ⟨49, _⟩ => ⟨S32x2048, .f32⟩
  | .hbm, ⟨50, _⟩ => ⟨S32x2048, .f32⟩
  | .hbm, ⟨51, _⟩ => ⟨S32x2048, .f32⟩
  | .hbm, ⟨52, _⟩ => ⟨S32x2048, .f32⟩
  | .hbm, ⟨53, _⟩ => ⟨S32x2048, .f32⟩
  | .hbm, ⟨54, _⟩ => ⟨S32x2048, .f32⟩
  | .hbm, ⟨55, _⟩ => ⟨S_, .f32⟩
  | .hbm, ⟨56, _⟩ => ⟨S32x2048, .f32⟩
  | .hbm, ⟨57, _⟩ => ⟨S32x2048, .f32⟩
  | .hbm, ⟨58, _⟩ => ⟨S32x2048, .f32⟩
  | .hbm, ⟨59, _⟩ => ⟨S32x2048, .f32⟩
  | .hbm, ⟨60, _⟩ => ⟨S32x2048, .i1⟩
  | .hbm, ⟨61, _⟩ => ⟨S32x2048, .f32⟩
  | .hbm, ⟨62, _⟩ => ⟨S32x2048, .f32⟩
  | .hbm, ⟨63, _⟩ => ⟨S32x2048, .f32⟩
  | .hbm, ⟨64, _⟩ => ⟨S32x2048, .f32⟩
  | .hbm, ⟨65, _⟩ => ⟨S32x2048, .f32⟩
  | .hbm, ⟨66, _⟩ => ⟨S32x2048, .f32⟩
  | .hbm, ⟨67, _⟩ => ⟨S32x2048, .f32⟩
  | .hbm, ⟨68, _⟩ => ⟨S32x2048, .f32⟩
  | .hbm, ⟨69, _⟩ => ⟨S32x2048, .f32⟩
  | .hbm, ⟨70, _⟩ => ⟨S32x2048, .f32⟩
  | .hbm, ⟨71, _⟩ => ⟨S_, .f32⟩
  | .hbm, ⟨72, _⟩ => ⟨S32x2048, .f32⟩
  | .hbm, ⟨73, _⟩ => ⟨S32x2048, .f32⟩
  | .hbm, ⟨74, _⟩ => ⟨S32x2048, .f32⟩
  | .hbm, ⟨75, _⟩ => ⟨S32x2048, .f32⟩
  | .hbm, ⟨76, _⟩ => ⟨S_, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S32, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v23 : Ref sig .tc := ⟨.hbm, 52, rfl⟩
abbrev main_v24 : Ref sig .tc := ⟨.hbm, 53, rfl⟩
abbrev main_call1_v0 : Ref sig .tc := ⟨.hbm, 54, rfl⟩
abbrev main_call1_call0_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_v8 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_v1 : Ref sig .tc := ⟨.hbm, 68, rfl⟩
abbrev main_v25 : Ref sig .tc := ⟨.hbm, 69, rfl⟩
abbrev main_v26 : Ref sig .tc := ⟨.hbm, 70, rfl⟩
abbrev main_cst_9 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_10 : Ref sig .tc := ⟨.hbm, 76, rfl⟩
abbrev main_v31 : Ref sig .tc := ⟨.hbm, 77, rfl⟩
abbrev main_cst_11 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_12 : Ref sig .tc := ⟨.hbm, 84, rfl⟩
abbrev main_v37 : Ref sig .tc := ⟨.hbm, 85, rfl⟩
abbrev main_cst_13 : Ref sig .tc := ⟨.hbm, 86, rfl⟩
abbrev main_v38 : Ref sig .tc := ⟨.hbm, 87, rfl⟩

abbrev nD : Nat := 1
abbrev τ : Topo := Topo.v7x

variable {F : FTy → Type} [FloatOps F]

class Facts₀ : Prop where
  reducesTo_S32x2048x3_S32x2048_d2 : S32x2048x3.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d2 : S32x2048x2048.ReducesTo [2] S32x2048
  reducesTo_S32x2048_S32_d1 : S32x2048.ReducesTo [1] S32
  bcast_S_S32 : S_.BroadcastsInDim S32 (![] : Fin 0 → Fin S32.rank)
  reducesTo_S32x2048x2048_S32x2048_d1 : S32x2048x2048.ReducesTo [1] S32x2048
  bcast_S_S32x2048 : S_.BroadcastsInDim S32x2048 (![] : Fin 0 → Fin S32x2048.rank)
  reducesTo_S32_S_d0 : S32.ReducesTo [0] S_
  dot_S32x2048x3_S32x2048x3_S32x2048x2048_2_2_1_1_0_0_wf : DotDims.WF S32x2048x3 S32x2048x3 S32x2048x2048 [2] [2] [1] [1] [0] [0]

variable [Facts₀]

def dot_S32x2048x3_S32x2048x3_S32x2048x2048_2_2_1_1_0_0 : DotDims S32x2048x3 S32x2048x3 S32x2048x2048 where
  lhsContracting := [2]
  rhsContracting := [2]
  lhsNonContracting := [1]
  rhsNonContracting := [1]
  lhsBatch := [0]
  rhsBatch := [0]
  wf := dot_S32x2048x3_S32x2048x3_S32x2048x2048_2_2_1_1_0_0_wf

class Facts : Prop extends Facts₀ where

variable [Facts]
-- ==== Proof.Spec.lean ====
/-
  The loss both programs compute, as functions of the four argument arrays over the extended reals.

  For a batch entry `b`, points `p b n` (estimated) and `q b m` (ground truth) in three coordinates, the squared
  distance is taken in the expanded form `D b n m = max ((|p n|² + |q m|²) - 2 · ⟨p n, q m⟩) 0`; the chamfer terms are
  the mean over `n` of `min_m D` and the mean over `m` of `min_n D`; the third term is minus the mean over `n` of
  `t · logσ(z) + (1 - t) · logσ(-z)` with `logσ(z) = -softplus(-z)` and
  `softplus(u) = max u 0 + log1p (exp (-|u|))` (written with the not-a-number guard both programs carry, which never
  fires on the extended reals). The loss is the mean of the per-entry values over the 32 entries.

  Two arrangements are stated. The first (`perSampleR`) takes each minimum and each sum over all 2048 indices at
  once and divides by 2048. The second (`perSampleK`) walks the 2048 ground-truth points in four tiles of 512: the
  row minimum is a running minimum over the tiles from +∞, the sum of column minima a running sum over the tiles from
  0, multiplied at the end by 2⁻¹¹. `Math.lean` proves them equal.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- The point clouds: 32 entries of 2048 points in 3 coordinates. -/
abbrev Pts : Shape := ⟨3, ![32, 2048, 3]⟩
/-- The labels: 32 entries of 2048 numbers. -/
abbrev Lbl : Shape := ⟨2, ![32, 2048]⟩
/-- One number per entry. -/
abbrev Per : Shape := ⟨1, ![32]⟩
/-- A scalar. -/
abbrev Sc : Shape := ⟨0, ![]⟩

/-- The float words the programs spell, read as extended reals. -/
abbrev cZero : EReal := Ideal.ofBits .f32 0x00000000#32
abbrev cOne : EReal := Ideal.ofBits .f32 0x3F800000#32
abbrev cTwo : EReal := Ideal.ofBits .f32 0x40000000#32
abbrev cTop : EReal := Ideal.ofBits .f32 0x7F800000#32
abbrev c2048 : EReal := Ideal.ofBits .f32 0x45000000#32
abbrev cInv2048 : EReal := Ideal.ofBits .f32 0x3A000000#32

/-- The squared norm of point `n` of entry `b`. -/
def sq (p : FVec Ideal Pts .f32) (b : Fin 32) (n : Fin 2048) : EReal :=
  ∑ d : Fin 3, p (ix3 b n d) * p (ix3 b n d)

/-- The inner product of point `n` of `p` and point `m` of `q`, entry `b`. -/
def dot (p q : FVec Ideal Pts .f32) (b : Fin 32) (n m : Fin 2048) : EReal :=
  ∑ d : Fin 3, p (ix3 b n d) * q (ix3 b m d)

/-- The clamped squared distance in its expanded form. -/
def D (p q : FVec Ideal Pts .f32) (b : Fin 32) (n m : Fin 2048) : EReal :=
  max ((sq p b n + sq q b m) - cTwo * dot p q b n m) cZero

/-! ## All 2048 indices at once -/

/-- The distance from point `n` of `p` to the cloud `q`. -/
def rowMin (p q : FVec Ideal Pts .f32) (b : Fin 32) (n : Fin 2048) : EReal :=
  (Finset.univ : Finset (Fin 2048)).fold min cTop fun m => D p q b n m

/-- The distance from point `m` of `q` to the cloud `p`. -/
def colMin (p q : FVec Ideal Pts .f32) (b : Fin 32) (m : Fin 2048) : EReal :=
  (Finset.univ : Finset (Fin 2048)).fold min cTop fun n => D p q b n m

/-- softplus with its guard, the absolute value's sign carried by a negation. -/
def spR (x : EReal) : EReal :=
  Scalar.select (Ideal.cmp .une (x - cZero) (x - cZero)) (x + cZero)
    (max x cZero + Ideal.log1p (Ideal.exp (-(FloatOps.absf (F := Ideal) (φ := .f32) (x - cZero)))))

/-- log σ(z) -/
def lsR (z : EReal) : EReal := -(spR (-z))

/-- The cross-entropy summand at one label. -/
def bceTermR (z t : EReal) : EReal := t * lsR z + (cOne - t) * lsR (-z)

/-- Minus the mean cross-entropy of entry `b`. -/
def bceR (z t : FVec Ideal Lbl .f32) (b : Fin 32) : EReal :=
  -(Ideal.div (cZero + ∑ n : Fin 2048, bceTermR (z (ix2 b n)) (t (ix2 b n))) c2048)

/-- The per-entry value: both chamfer means and the cross-entropy. -/
def perSampleR (p q : FVec Ideal Pts .f32) (z t : FVec Ideal Lbl .f32) (b : Fin 32) : EReal :=
  (Ideal.div (cZero + ∑ n : Fin 2048, rowMin p q b n) c2048
    + Ideal.div (cZero + ∑ m : Fin 2048, colMin p q b m) c2048) + bceR z t b

/-! ## Tile by tile -/

/-- Ground-truth point `r` of tile `j`. -/
def tl (j : Fin 4) (r : Fin 512) : Fin 2048 := ⟨512 * j.val + r.val, by omega⟩

/-- The distance from point `n` of `p` to tile `j` of `q`. -/
def rowMinTile (p q : FVec Ideal Pts .f32) (b : Fin 32) (n : Fin 2048) (j : Fin 4) : EReal :=
  (Finset.univ : Finset (Fin 512)).fold min cTop fun r => D p q b n (tl j r)

/-- The sum over tile `j` of the distances from its points to the cloud `p`. -/
def colSumTile (p q : FVec Ideal Pts .f32) (b : Fin 32) (j : Fin 4) : EReal :=
  ∑ r : Fin 512, (Finset.univ : Finset (Fin 2048)).fold min cTop fun n => D p q b n (tl j r)

/-- The running minimum over the four tiles, from +∞. -/
def min1K (p q : FVec Ideal Pts .f32) (b : Fin 32) (n : Fin 2048) : EReal :=
  min (min (min (min cTop (rowMinTile p q b n 0)) (rowMinTile p q b n 1)) (rowMinTile p q b n 2)) (rowMinTile p q b n 3)

/-- The running sum over the four tiles, from 0. -/
def dist2K (p q : FVec Ideal Pts .f32) (b : Fin 32) : EReal :=
  (((cZero + colSumTile p q b 0) + colSumTile p q b 1) + colSumTile p q b 2) + colSumTile p q b 3

/-- softplus with its guard, the negations written as differences from zero. -/
def spK (u : EReal) : EReal :=
  Scalar.select (Ideal.cmp .one (u - cZero) (u - cZero)) (u + cZero)
    (max u cZero + Ideal.log1p (Ideal.exp (cZero - FloatOps.absf (F := Ideal) (φ := .f32) (u - cZero))))

def lsPosK (z : EReal) : EReal := cZero - spK (cZero - z)
def lsNegK (z : EReal) : EReal := cZero - spK (cZero - (cZero - z))

def bceTermK (z t : EReal) : EReal := t * lsPosK z + (cOne - t) * lsNegK z

def bceK (z t : FVec Ideal Lbl .f32) (b : Fin 32) : EReal :=
  cZero - Ideal.div (∑ n : Fin 2048, bceTermK (z (ix2 b n)) (t (ix2 b n))) c2048

def perSampleK (p q : FVec Ideal Pts .f32) (z t : FVec Ideal Lbl .f32) (b : Fin 32) : EReal :=
  (Ideal.div (∑ n : Fin 2048, min1K p q b n) c2048 + dist2K p q b * cInv2048) + bceK z t b

/-! ## The mean over the entries -/

/-- The last two host operations both programs end with: the sum of the 32 per-entry values from 0, divided by 32. -/
def tail (v : FVec Ideal Per .f32) (h : Per.ReducesTo [0] Sc) (hu : 0 < Sc.numel) : FVec Ideal Sc .f32 :=
  Host.divf (F := Ideal) (Host.reduceAdd (F := Ideal) v (constant (F := Ideal) Sc .f32 0x00000000#32) h hu)
    (constant (F := Ideal) Sc .f32 0x42000000#32)

end Chamfer

end
-- ==== Proof.Math.lean ====
/-
  The two arrangements of the per-entry value are one extended real.
-/
import proofs.«179467_j9689446220325_1_alg».proof.Proof.Spec

noncomputable section

namespace Chamfer

open Idealize.ShloMosaic Idealize.ShloMosaic.ValueIdx

/-! ## The float words as extended reals -/

theorem cZero_eq : cZero = 0 := Ideal.ofBits_zero_f32

theorem cTop_eq : cTop = ⊤ := by
  simp [Ideal.ofBits, Ideal.ieee]

theorem c2048_eq : c2048 = ((2048 : ℝ) : EReal) := by
  simp [Ideal.ofBits, Ideal.ieee, -EReal.coe_mul]; norm_num

theorem cInv2048_eq : cInv2048 = ((1 / 2048 : ℝ) : EReal) := by
  simp [Ideal.ofBits, Ideal.ieee, -EReal.coe_mul]; norm_num

/-- Multiplying by 2⁻¹¹ is dividing by 2¹¹, on every extended real. -/
theorem mul_cInv2048 (x : EReal) : x * cInv2048 = Ideal.div x c2048 := by
  rw [cInv2048_eq, c2048_eq, Ideal.div_coe (by norm_num : (2048 : ℝ) ≠ 0)]

/-! ## The cross-entropy -/

/-- A number is never different from itself: the guard's bit is zero. -/
theorem cmp_one_self (x : EReal) : Ideal.cmp .one x x = 0#1 := by
  simp [Ideal.cmp]

theorem cmp_une_self (x : EReal) : Ideal.cmp .une x x = 0#1 := by
  simp [Ideal.cmp]

theorem spK_eq (u : EReal) : spK u = spR u := by
  unfold spK spR
  rw [cmp_one_self, cmp_une_self, select_zero, select_zero, cZero_eq, zero_sub]

theorem lsPosK_eq (z : EReal) : lsPosK z = lsR z := by
  unfold lsPosK lsR
  rw [spK_eq, cZero_eq, zero_sub, zero_sub]

theorem lsNegK_eq (z : EReal) : lsNegK z = lsR (-z) := by
  unfold lsNegK lsR
  rw [spK_eq, cZero_eq, zero_sub, zero_sub, zero_sub]

theorem bceTermK_eq (z t : EReal) : bceTermK z t = bceTermR z t := by
  unfold bceTermK bceTermR
  rw [lsPosK_eq, lsNegK_eq]

theorem bceK_eq (z t : FVec Ideal Lbl .f32) (b : Fin 32) : bceK z t b = bceR z t b := by
  unfold bceK bceR
  simp only [bceTermK_eq]
  rw [cZero_eq, zero_sub, zero_add]

/-! ## The tiles cover the 2048 indices -/

/-- Tile and offset: the pair `(j, r)` names the index `512 j + r`. -/
def tileEquiv : Fin 4 × Fin 512 ≃ Fin 2048 where
  toFun x := tl x.1 x.2
  invFun m := (⟨m.val / 512, by omega⟩, ⟨m.val % 512, by omega⟩)
  left_inv x := by
    rcases x with ⟨j, r⟩
    ext <;> simp [tl] <;> omega
  right_inv m := by
    ext; simp [tl]; omega

theorem tileEquiv_apply (j : Fin 4) (r : Fin 512) : tileEquiv (j, r) = tl j r := rfl

/-- Every index lies in a tile. -/
theorem exists_tl (m : Fin 2048) : ∃ j r, tl j r = m :=
  ⟨(tileEquiv.symm m).1, (tileEquiv.symm m).2, tileEquiv.apply_symm_apply m⟩

/-- A sum over the 2048 indices is the sum of the four tile sums. -/
theorem sum_tiles (f : Fin 2048 → EReal) :
    ∑ m : Fin 2048, f m
      = (∑ r : Fin 512, f (tl 0 r)) + (∑ r : Fin 512, f (tl 1 r)) + (∑ r : Fin 512, f (tl 2 r))
        + (∑ r : Fin 512, f (tl 3 r)) := by
  rw [← Equiv.sum_comp tileEquiv f, Fintype.sum_prod_type, Fin.sum_univ_four]
  rfl

/-! ## The row minimum -/

theorem min1K_eq (p q : FVec Ideal Pts .f32) (b : Fin 32) (n : Fin 2048) :
    min1K p q b n = rowMin p q b n := by
  unfold min1K rowMin
  apply le_antisymm
  · rw [Finset.le_fold_min]
    refine ⟨?_, fun m _ => ?_⟩
    · exact le_trans (min_le_left _ _) (le_trans (min_le_left _ _)
        (le_trans (min_le_left _ _) (min_le_left _ _)))
    · obtain ⟨j, r, rfl⟩ := exists_tl m
      have hj : rowMinTile p q b n j ≤ D p q b n (tl j r) := by
        unfold rowMinTile
        rw [Finset.fold_min_le]
        exact Or.inr ⟨r, Finset.mem_univ _, le_rfl⟩
      refine le_trans ?_ hj
      fin_cases j
      · exact le_trans (min_le_left _ _) (le_trans (min_le_left _ _)
          (le_trans (min_le_left _ _) (min_le_right _ _)))
      · exact le_trans (min_le_left _ _) (le_trans (min_le_left _ _) (min_le_right _ _))
      · exact le_trans (min_le_left _ _) (min_le_right _ _)
      · exact min_le_right _ _
  · have h : ∀ j : Fin 4,
        (Finset.univ : Finset (Fin 2048)).fold min cTop (fun m => D p q b n m) ≤ rowMinTile p q b n j := by
      intro j
      unfold rowMinTile
      rw [Finset.le_fold_min]
      refine ⟨?_, fun r _ => ?_⟩
      · rw [Finset.fold_min_le]; exact Or.inl le_rfl
      · rw [Finset.fold_min_le]; exact Or.inr ⟨tl j r, Finset.mem_univ _, le_rfl⟩
    have h0 : (Finset.univ : Finset (Fin 2048)).fold min cTop (fun m => D p q b n m) ≤ cTop := by
      rw [Finset.fold_min_le]; exact Or.inl le_rfl
    exact le_min (le_min (le_min (le_min h0 (h 0)) (h 1)) (h 2)) (h 3)

/-! ## The sum of column minima -/

theorem dist2K_eq (p q : FVec Ideal Pts .f32) (b : Fin 32) :
    dist2K p q b = cZero + ∑ m : Fin 2048, colMin p q b m := by
  unfold dist2K
  rw [sum_tiles (fun m => colMin p q b m)]
  simp only [cZero_eq, zero_add]
  rfl

/-! ## The per-entry value -/

theorem perSampleK_eq (p q : FVec Ideal Pts .f32) (z t : FVec Ideal Lbl .f32) (b : Fin 32) :
    perSampleK p q z t b = perSampleR p q z t b := by
  unfold perSampleK perSampleR
  rw [mul_cInv2048, dist2K_eq, bceK_eq]
  simp only [min1K_eq]
  rw [cZero_eq, zero_add, zero_add]

end Chamfer

end
-- ==== Proof.RefTerm.lean ====
/-
  The reference's result as one term of its four arguments: its host operations composed, named after what they
  compute — the squared norms, the clamped squared distances, a mean over the points, the two chamfer means, softplus
  and log σ, the cross-entropy mean, the per-entry value, and the mean over the entries.
-/
import proofs.«179467_j9689446220325_1_alg».proof.ReferenceIdeal

noncomputable section

namespace Cert.ReferenceIdeal.RefRun

open Cert.ReferenceIdeal Cert.ReferenceIdeal.Facts₀ Idealize.ShloMosaic

variable {F : FTy → Type} [FloatOps F] [Facts]

/-- The sum of squares along the coordinate axis, from 0. -/
def sqsum (a : FVec F S32x2048x3 .f32) : FVec F S32x2048 .f32 :=
  Host.reduceAdd (mulf a a) (constant S_ .f32 0x00000000#32) reducesTo_S32x2048x3_S32x2048_d2 h_S_

/-- The clamped squared distance of every pair of points of every entry. -/
def dist (a0 a1 : FVec F S32x2048x3 .f32) : FVec F S32x2048x2048 .f32 :=
  maximumf
    (subf
      (addf
        (broadcastInDim S32x2048x2048 ![0, 1, 2] bcast_S32x2048x1_S32x2048x2048_0_1_2
          (broadcastInDim S32x2048x1 ![0, 1] bcast_S32x2048_S32x2048x1_0_1 (sqsum a0)))
        (broadcastInDim S32x2048x2048 ![0, 1, 2] bcast_S32x1x2048_S32x2048x2048_0_1_2
          (broadcastInDim S32x1x2048 ![0, 2] bcast_S32x2048_S32x1x2048_0_2 (sqsum a1))))
      (mulf (broadcastInDim S32x2048x2048 ![] bcast_S_S32x2048x2048 (constant S_ .f32 0x40000000#32))
        (Host.dotGeneral dot_S32x2048x3_S32x2048x3_S32x2048x2048_2_2_1_1_0_0 none a0 a1)))
    (broadcastInDim S32x2048x2048 ![] bcast_S_S32x2048x2048 (constant S_ .f32 0x00000000#32))

/-- The mean over the 2048 points of each entry: the sum from 0, divided by 2048. -/
def meanOf (v : FVec F S32x2048 .f32) : FVec F S32 .f32 :=
  Host.divf (Host.reduceAdd v (constant S_ .f32 0x00000000#32) reducesTo_S32x2048_S32_d1 h_S_)
    (broadcastInDim S32 ![] bcast_S_S32 (constant S_ .f32 0x45000000#32))

/-- The mean distance from the estimated points to the ground-truth cloud. -/
def dist1 (a0 a1 : FVec F S32x2048x3 .f32) : FVec F S32 .f32 :=
  meanOf (Host.reduce FloatOps.minimumf (dist a0 a1) (constant S_ .f32 0x7F800000#32) reducesTo_S32x2048x2048_S32x2048_d2 h_S_)

/-- The mean distance from the ground-truth points to the estimated cloud. -/
def dist2 (a0 a1 : FVec F S32x2048x3 .f32) : FVec F S32 .f32 :=
  meanOf (Host.reduce FloatOps.minimumf (dist a0 a1) (constant S_ .f32 0x7F800000#32) reducesTo_S32x2048x2048_S32x2048_d1 h_S_)

/-- The zero array of the labels' shape. -/
def zeros : FVec F S32x2048 .f32 :=
  broadcastInDim S32x2048 ![] bcast_S_S32x2048 (constant S_ .f32 0x00000000#32)

/-- softplus, with its guard. -/
def softplus (x : FVec F S32x2048 .f32) : FVec F S32x2048 .f32 :=
  select (cmpf .une (subf x zeros) (subf x zeros)) (addf x zeros)
    (addf (maximumf x zeros) (Host.log1p (Host.exp (Host.negf (Host.absf (subf x zeros))))))

/-- log σ -/
def logSigmoid (x : FVec F S32x2048 .f32) : FVec F S32x2048 .f32 :=
  Host.negf (softplus (Host.negf x))

/-- Minus the mean cross-entropy of each entry. -/
def bce (a2 a3 : FVec F S32x2048 .f32) : FVec F S32 .f32 :=
  Host.negf (meanOf (addf (mulf a3 (logSigmoid a2))
    (mulf (subf (broadcastInDim S32x2048 ![] bcast_S_S32x2048 (constant S_ .f32 0x3F800000#32)) a3) (logSigmoid (Host.negf a2)))))

/-- The per-entry value. -/
def perSample (a0 a1 : FVec F S32x2048x3 .f32) (a2 a3 : FVec F S32x2048 .f32) : FVec F S32 .f32 :=
  addf (addf (dist1 a0 a1) (dist2 a0 a1)) (bce a2 a3)

/-- The reference's result. -/
def refTerm (a0 a1 : FVec F S32x2048x3 .f32) (a2 a3 : FVec F S32x2048 .f32) : FVec F S_ .f32 :=
  Host.divf (Host.reduceAdd (perSample a0 a1 a2 a3) (constant S_ .f32 0x00000000#32) reducesTo_S32_S_d0 h_S_)
    (constant S_ .f32 0x42000000#32)

end Cert.ReferenceIdeal.RefRun

end
-- ==== Proof.RefRun.lean ====
/-
  The reference's run: its host operations as one list, and every weakly fair execution ending with the result buffer
  at the composed term of the arguments.
-/
import proofs.«179467_j9689446220325_1_alg».proof.Proof.RefTerm
import proofs.«179467_j9689446220325_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 84 host operations, in order: @main's own, and at each of the two calls of log σ the callee's
    three — the negation, softplus's fourteen over that call's buffers, the negation of its result. -/
abbrev ops : List (HloOp τ sig (Elt F)) :=
  [ binary main_arg0 main_arg0 main_v0 (mulf : (⟨S32x2048x3, .f32⟩ : BufTy).Contents (Elt F) → (⟨S32x2048x3, .f32⟩ : BufTy).Contents (Elt F) → (⟨S32x2048x3, .f32⟩ : BufTy).Contents (Elt F)),
    nullary main_cst (constant S_ .f32 0x00000000#32),
    binary main_v0 main_cst main_v1 ((fun x v => Host.reduceAdd x v reducesTo_S32x2048x3_S32x2048_d2 h_S_) : (⟨S32x2048x3, .f32⟩ : BufTy).Contents (Elt F) → (⟨S_, .f32⟩ : BufTy).Contents (Elt F) → (⟨S32x2048, .f32⟩ : BufTy).Contents (Elt F)),
    binary main_arg1 main_arg1 main_v2 (mulf : (⟨S32x2048x3, .f32⟩ : BufTy).Contents (Elt F) → (⟨S32x2048x3, .f32⟩ : BufTy).Contents (Elt F) → (⟨S32x2048x3, .f32⟩ : BufTy).Contents (Elt F)),
    nullary main_cst_0 (constant S_ .f32 0x00000000#32),
    binary main_v2 main_cst_0 main_v3 ((fun x v => Host.reduceAdd x v reducesTo_S32x2048x3_S32x2048_d2 h_S_) : (⟨S32x2048x3, .f32⟩ : BufTy).Contents (Elt F) → (⟨S_, .f32⟩ : BufTy).Contents (Elt F) → (⟨S32x2048, .f32⟩ : BufTy).Contents (Elt F)),
    binary main_arg0 main_arg1 main_v4 ((fun l r => Host.dotGeneral dot_S32x2048x3_S32x2048x3_S32x2048x2048_2_2_1_1_0_0 none l r) : (⟨S32x2048x3, .f32⟩ : BufTy).Contents (Elt F) → (⟨S32x2048x3, .f32⟩ : BufTy).Contents (Elt F) → (⟨S32x2048x2048, .f32⟩ : BufTy).Contents (Elt F)),
    unary main_v1 main_v5 (broadcastInDim S32x2048x1 ![0, 1] bcast_S32x2048_S32x2048x1_0_1 : (⟨S32x2048, .f32⟩ : BufTy).Contents (Elt F) → (⟨S32x2048x1, .f32⟩ : BufTy).Contents (Elt F)),
    unary main_v3 main_v6 (broadcastInDim S32x1x2048 ![0, 2] bcast_S32x2048_S32x1x2048_0_2 : (⟨S32x2048, .f32⟩ : BufTy).Contents (Elt F) → (⟨S32x1x2048, .f32⟩ : BufTy).Contents (Elt F)),
    unary main_v5 main_v7 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    unary main_v6 main_v8 (broadcastInDim S32x2048x2048 ![0, 1, 2] bcast_S32x1x2048_S32x2048x2048_0_1_2 : (⟨S32x1x2048, .f32⟩ : BufTy).Contents (Elt F) → (⟨S32x2048x2048, .f32⟩ : BufTy).Contents (Elt F)),
    binary main_v7 main_v8 main_v9 (addf : (⟨S32x2048x2048, .f32⟩ : BufTy).Contents (Elt F) → (⟨S32x2048x2048, .f32⟩ : BufTy).Contents (Elt F) → (⟨S32x2048x2048, .f32⟩ : BufTy).Contents (Elt F)),
    nullary main_cst_1 (constant S_ .f32 0x40000000#32),
    unary main_cst_1 main_v10 (broadcastInDim S32x2048x2048 ![] bcast_S_S32x2048x2048 : (⟨S_, .f32⟩ : BufTy).Contents (Elt F) → (⟨S32x2048x2048, .f32⟩ : BufTy).Contents (Elt F)),
    binary main_v10 main_v4 main_v11 (mulf : (⟨S32x2048x2048, .f32⟩ : BufTy).Contents (Elt F) → (⟨S32x2048x2048, .f32⟩ : BufTy).Contents (Elt F) → (⟨S32x2048x2048, .f32⟩ : BufTy).Contents (Elt F)),
    binary main_v9 main_v11 main_v12 (subf : (⟨S32x2048x2048, .f32⟩ : BufTy).Contents (Elt F) → (⟨S32x2048x2048, .f32⟩ : BufTy).Contents (Elt F) → (⟨S32x2048x2048, .f32⟩ : BufTy).Contents (Elt F)),
    nullary main_cst_2 (constant S_ .f32 0x00000000#32),
    unary main_cst_2 main_v13 (broadcastInDim S32x2048x2048 ![] bcast_S_S32x2048x2048 : (⟨S_, .f32⟩ : BufTy).Contents (Elt F) → (⟨S32x2048x2048, .f32⟩ : BufTy).Contents (Elt F)),
    binary main_v12 main_v13 main_v14 (maximumf : (⟨S32x2048x2048, .f32⟩ : BufTy).Contents (Elt F) → (⟨S32x2048x2048, .f32⟩ : BufTy).Contents (Elt F) → (⟨S32x2048x2048, .f32⟩ : BufTy).Contents (Elt F)),
    nullary main_cst_3 (constant S_ .f32 0x7F800000#32),
    binary main_v14 main_cst_3 main_v15 ((fun x v => Host.reduce FloatOps.minimumf x v reducesTo_S32x2048x2048_S32x2048_d2 h_S_) : (⟨S32x2048x2048, .f32⟩ : BufTy).Contents (Elt F) → (⟨S_, .f32⟩ : BufTy).Contents (Elt F) → (⟨S32x2048, .f32⟩ : BufTy).Contents (Elt F)),
    nullary main_cst_4 (constant S_ .f32 0x00000000#32),
    binary main_v15 main_cst_4 main_v16 ((fun x v => Host.reduceAdd x v reducesTo_S32x2048_S32_d1 h_S_) : (⟨S32x2048, .f32⟩ : BufTy).Contents (Elt F) → (⟨S_, .f32⟩ : BufTy).Contents (Elt F) → (⟨S32, .f32⟩ : BufTy).Contents (Elt F)),
    nullary main_cst_5 (constant S_ .f32 0x45000000#32),
    unary main_cst_5 main_v17 (broadcastInDim S32 ![] bcast_S_S32 : (⟨S_, .f32⟩ : BufTy).Contents (Elt F) → (⟨S32, .f32⟩ : BufTy).Contents (Elt F)),
    binary main_v16 main_v17 main_v18 (Host.divf : (⟨S32, .f32⟩ : BufTy).Contents (Elt F) → (⟨S32, .f32⟩ : BufTy).Contents (Elt F) → (⟨S32, .f32⟩ : BufTy).Contents (Elt F)),
    nullary main_cst_6 (constant S_ .f32 0x7F800000#32),
    binary main_v14 main_cst_6 main_v19 ((fun x v => Host.reduce FloatOps.minimumf x v reducesTo_S32x2048x2048_S32x2048_d1 h_S_) : (⟨S32x2048x2048, .f32⟩ : BufTy).Contents (Elt F) → (⟨S_, .f32⟩ : BufTy).Contents (Elt F) → (⟨S32x2048, .f32⟩ : BufTy).Contents (Elt F)),
    nullary main_cst_7 (constant S_ .f32 0x00000000#32),
    binary main_v19 main_cst_7 main_v20 ((fun x v => Host.reduceAdd x v reducesTo_S32x2048_S32_d1 h_S_) : (⟨S32x2048, .f32⟩ : BufTy).Contents (Elt F) → (⟨S_, .f32⟩ : BufTy).Contents (Elt F) → (⟨S32, .f32⟩ : BufTy).Contents (Elt F)),
    nullary main_cst_8 (constant S_ .f32 0x45000000#32),
    unary main_cst_8 main_v21 (broadcastInDim S32 ![] bcast_S_S32 : (⟨S_, .f32⟩ : BufTy).Contents (Elt F) → (⟨S32, .f32⟩ : BufTy).Contents (Elt F)),
    binary main_v20 main_v21 main_v22 (Host.divf : (⟨S32, .f32⟩ : BufTy).Contents (Elt F) → (⟨S32, .f32⟩ : BufTy).Contents (Elt F) → (⟨S32, .f32⟩ : BufTy).Contents (Elt F)),
    TRef.unary (.of main_arg2) main_call0.v0 Host.negf,
    TRef.nullary main_call0.call0.cst (constant S_ .f32 0x00000000#32),
    TRef.unary main_call0.call0.cst main_call0.call0.v0 (broadcastInDim S32x2048 ![] bcast_S_S32x2048),
    TRef.binary main_call0.v0 main_call0.call0.v0 main_call0.call0.v1 maximumf,
    TRef.unary main_call0.call0.cst main_call0.call0.v2 (broadcastInDim S32x2048 ![] bcast_S_S32x2048),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S32x2048 ![] bcast_S_S32x2048),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_arg2 main_v24 (Host.negf : (⟨S32x2048, .f32⟩ : BufTy).Contents (Elt F) → (⟨S32x2048, .f32⟩ : BufTy).Contents (Elt F)),
    TRef.unary (.of main_v24) main_call1.v0 Host.negf,
    TRef.nullary main_call1.call0.cst (constant S_ .f32 0x00000000#32),
    TRef.unary main_call1.call0.cst main_call1.call0.v0 (broadcastInDim S32x2048 ![] bcast_S_S32x2048),
    TRef.binary main_call1.v0 main_call1.call0.v0 main_call1.call0.v1 maximumf,
    TRef.unary main_call1.call0.cst main_call1.call0.v2 (broadcastInDim S32x2048 ![] bcast_S_S32x2048),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S32x2048 ![] bcast_S_S32x2048),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_arg3 main_v23 main_v26 (mulf : (⟨S32x2048, .f32⟩ : BufTy).Contents (Elt F) → (⟨S32x2048, .f32⟩ : BufTy).Contents (Elt F) → (⟨S32x2048, .f32⟩ : BufTy).Contents (Elt F)),
    nullary main_cst_9 (constant S_ .f32 0x3F800000#32),
    unary main_cst_9 main_v27 (broadcastInDim S32x2048 ![] bcast_S_S32x2048 : (⟨S_, .f32⟩ : BufTy).Contents (Elt F) → (⟨S32x2048, .f32⟩ : BufTy).Contents (Elt F)),
    binary main_v27 main_arg3 main_v28 (subf : (⟨S32x2048, .f32⟩ : BufTy).Contents (Elt F) → (⟨S32x2048, .f32⟩ : BufTy).Contents (Elt F) → (⟨S32x2048, .f32⟩ : BufTy).Contents (Elt F)),
    binary main_v28 main_v25 main_v29 (mulf : (⟨S32x2048, .f32⟩ : BufTy).Contents (Elt F) → (⟨S32x2048, .f32⟩ : BufTy).Contents (Elt F) → (⟨S32x2048, .f32⟩ : BufTy).Contents (Elt F)),
    binary main_v26 main_v29 main_v30 (addf : (⟨S32x2048, .f32⟩ : BufTy).Contents (Elt F) → (⟨S32x2048, .f32⟩ : BufTy).Contents (Elt F) → (⟨S32x2048, .f32⟩ : BufTy).Contents (Elt F)),
    nullary main_cst_10 (constant S_ .f32 0x00000000#32),
    binary main_v30 main_cst_10 main_v31 ((fun x v => Host.reduceAdd x v reducesTo_S32x2048_S32_d1 h_S_) : (⟨S32x2048, .f32⟩ : BufTy).Contents (Elt F) → (⟨S_, .f32⟩ : BufTy).Contents (Elt F) → (⟨S32, .f32⟩ : BufTy).Contents (Elt F)),
    nullary main_cst_11 (constant S_ .f32 0x45000000#32),
    unary main_cst_11 main_v32 (broadcastInDim S32 ![] bcast_S_S32 : (⟨S_, .f32⟩ : BufTy).Contents (Elt F) → (⟨S32, .f32⟩ : BufTy).Contents (Elt F)),
    binary main_v31 main_v32 main_v33 (Host.divf : (⟨S32, .f32⟩ : BufTy).Contents (Elt F) → (⟨S32, .f32⟩ : BufTy).Contents (Elt F) → (⟨S32, .f32⟩ : BufTy).Contents (Elt F)),
    unary main_v33 main_v34 (Host.negf : (⟨S32, .f32⟩ : BufTy).Contents (Elt F) → (⟨S32, .f32⟩ : BufTy).Contents (Elt F)),
    binary main_v18 main_v22 main_v35 (addf : (⟨S32, .f32⟩ : BufTy).Contents (Elt F) → (⟨S32, .f32⟩ : BufTy).Contents (Elt F) → (⟨S32, .f32⟩ : BufTy).Contents (Elt F)),
    binary main_v35 main_v34 main_v36 (addf : (⟨S32, .f32⟩ : BufTy).Contents (Elt F) → (⟨S32, .f32⟩ : BufTy).Contents (Elt F) → (⟨S32, .f32⟩ : BufTy).Contents (Elt F)),
    nullary main_cst_12 (constant S_ .f32 0x00000000#32),
    binary main_v36 main_cst_12 main_v37 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_13 (constant S_ .f32 0x42000000#32),
    binary main_v37 main_cst_13 main_v38 (Host.divf : (⟨S_, .f32⟩ : BufTy).Contents (Elt F) → (⟨S_, .f32⟩ : BufTy).Contents (Elt F) → (⟨S_, .f32⟩ : BufTy).Contents (Elt F)) ]

set_option maxRecDepth 8192 in
/-- @main is that straight line: with the three functions' definitions unfolded at their calls, both sides are the
    same chain of steps, by computation of the sequencing. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., binary_bufs_sub .., nullary_bufs_sub .., binary_bufs_sub .., nullary_bufs_sub ..,
    unary_bufs_sub .., binary_bufs_sub .., nullary_bufs_sub .., binary_bufs_sub .., nullary_bufs_sub .., binary_bufs_sub ..,
    nullary_bufs_sub .., unary_bufs_sub .., binary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., unary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    binary_bufs_sub .., nullary_bufs_sub .., unary_bufs_sub .., binary_bufs_sub .., binary_bufs_sub .., binary_bufs_sub ..,
    nullary_bufs_sub .., binary_bufs_sub .., nullary_bufs_sub .., unary_bufs_sub .., binary_bufs_sub .., unary_bufs_sub ..,
    binary_bufs_sub .., binary_bufs_sub .., nullary_bufs_sub .., binary_bufs_sub .., nullary_bufs_sub .., binary_bufs_sub ..⟩

-- the fold is read in one pass over eighty-four operations, each result reference told apart from the others
set_option maxRecDepth 8192 in
set_option maxHeartbeats 4000000 in
/-- The fold of the operations at the result buffer is the composed term: each operation's result at its own buffer is
    its function's value of its operands' contents, at any other buffer what was there, and the named intermediate
    terms unfold to exactly that composition. -/
theorem out_eq (V : Valuation τ sig (Elt F)) :
    after ops V (main_v38 : DevRef τ sig)
      = refTerm (V (main_arg0 : DevRef τ sig)) (V (main_arg1 : DevRef τ sig)) (V (main_arg2 : DevRef τ sig))
          (V (main_arg3 : DevRef τ sig)) := by
  after_results_simp
  rfl

set_option maxRecDepth 8192 in
set_option maxHeartbeats 4000000 in
/-- No operation writes argument 0's buffer. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1's buffer. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2's buffer. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3's buffer. -/
theorem arg3_eq (V : Valuation τ sig (Elt F)) :
    after ops V (main_arg3 : DevRef τ sig) = V (main_arg3 : DevRef τ sig) := by
  after_results_simp

/-- On every device, for any float values, from any memory with zero counters: every weakly fair execution of @main
    terminates with the result buffer at the composed term of the four arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v38).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefRun

end
-- ==== Proof.RefValue.lean ====
/-
  The reference's term, read index by index on the extended reals, is the mean over the entries of the per-entry value
  taken over all 2048 indices at once.

  One lemma per piece of the term, each at explicit coordinates: the squared norms are the sums of squares over the three
  coordinates; the contraction is the inner product of the two points; the clamped squared distance is the expanded form
  `max ((|p|² + |q|²) - 2 · ⟨p, q⟩) 0`; the two reductions by minimum from +∞ are the folds of `min` over the 2048
  ground-truth points and over the 2048 estimated points; a mean is the sum from 0 divided by 2048; softplus, log σ and
  the cross-entropy summand read element by element.
-/
import proofs.«179467_j9689446220325_1_alg».proof.Proof.RefTerm
import proofs.«179467_j9689446220325_1_alg».proof.Proof.Gen.ReferenceIdeal
import proofs.«179467_j9689446220325_1_alg».proof.Proof.Spec
import Idealize.ShloMosaic.Lib.IdealHost
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx

/-! ## The squared norms -/

/-- The point `(b, n)` with coordinate `k` put back on the last axis. -/
theorem lift3_2 (h : S32x2048x3.Reduces [2] S32x2048) (b : Fin 32) (n : Fin 2048) (k : Fin (S32x2048x3.size 2)) :
    h.lift (ix2 b n) k = ix3 b n (⟨k.val, k.isLt⟩ : Fin 3) := by
  funext c; apply Fin.ext
  fin_cases c <;> rfl

theorem sqsum_apply (a : FVec Ideal S32x2048x3 .f32) (b : Fin 32) (n : Fin 2048) :
    RefRun.sqsum (F := Ideal) a (ix2 b n) = Chamfer.sq a b n := by
  have h : S32x2048x3.Reduces [2] S32x2048 := by decide
  unfold RefRun.sqsum Chamfer.sq
  rw [hostReduceAdd_apply, Ideal.hostReduceAdd_single _ h, constant_apply, Ideal.ofBits_zero_f32, zero_add]
  refine Finset.sum_congr rfl fun k _ => ?_
  rw [lift3_2 h b n k, mulf_apply]
  rfl

/-! ## The inner products -/

/-- The dimension numbers of the reference's contraction: entries in step on axis 0, points free on axis 1, coordinates
    contracted on axis 2. -/
abbrev refDot : DotDims S32x2048x3 S32x2048x3 S32x2048x2048 := dot_S32x2048x3_S32x2048x3_S32x2048x2048_2_2_1_1_0_0

theorem lhs_ax0 (i : S32x2048x2048.Idx) (q : refDot.contr.Idx) : (refDot.lhsIdx i q 0).val = (i 0).val := by
  unfold DotDims.lhsIdx
  rw [dif_pos (show (0 : Fin S32x2048x3.rank) ∈ refDot.lhsBatch by decide)]
  rfl
theorem lhs_ax1 (i : S32x2048x2048.Idx) (q : refDot.contr.Idx) : (refDot.lhsIdx i q 1).val = (i 1).val := by
  unfold DotDims.lhsIdx
  rw [dif_neg (show ¬(1 : Fin S32x2048x3.rank) ∈ refDot.lhsBatch by decide),
    dif_pos (show (1 : Fin S32x2048x3.rank) ∈ refDot.lhsNonContracting by decide)]
  rfl
theorem lhs_ax2 (i : S32x2048x2048.Idx) (q : refDot.contr.Idx) : (refDot.lhsIdx i q 2).val = (q ⟨0, by decide⟩).val :=
  refDot.lhsIdx_val_of_single rfl i q
theorem rhs_ax0 (i : S32x2048x2048.Idx) (q : refDot.contr.Idx) : (refDot.rhsIdx i q 0).val = (i 0).val := by
  unfold DotDims.rhsIdx
  rw [dif_pos (show (0 : Fin S32x2048x3.rank) ∈ refDot.rhsBatch by decide)]
  rfl
theorem rhs_ax1 (i : S32x2048x2048.Idx) (q : refDot.contr.Idx) : (refDot.rhsIdx i q 1).val = (i 2).val := by
  unfold DotDims.rhsIdx
  rw [dif_neg (show ¬(1 : Fin S32x2048x3.rank) ∈ refDot.rhsBatch by decide),
    dif_pos (show (1 : Fin S32x2048x3.rank) ∈ refDot.rhsNonContracting by decide)]
  rfl
theorem rhs_ax2 (i : S32x2048x2048.Idx) (q : refDot.contr.Idx) : (refDot.rhsIdx i q 2).val = (q ⟨0, by decide⟩).val :=
  refDot.rhsIdx_val_of_single rfl i q

theorem dot_apply (a0 a1 : FVec Ideal S32x2048x3 .f32) (b : Fin 32) (n m : Fin 2048) :
    Host.dotGeneral (F := Ideal) refDot none a0 a1 (ix3 b n m) = Chamfer.dot a0 a1 b n m := by
  unfold Chamfer.dot
  simp only [Host.dotGeneral]
  rw [Ideal.dotGeneral_apply, ← Equiv.sum_comp (contrEquiv1 refDot 3 rfl rfl).symm]
  refine Finset.sum_congr rfl fun k _ => ?_
  have hk := contrEquiv1_symm_val refDot 3 rfl rfl k
  have el : refDot.lhsIdx (ix3 b n m) ((contrEquiv1 refDot 3 rfl rfl).symm k) = ix3 b n k := funext fun a => Fin.ext (by
    match a with
    | ⟨0, _⟩ => exact lhs_ax0 _ _
    | ⟨1, _⟩ => exact lhs_ax1 _ _
    | ⟨2, _⟩ => exact (lhs_ax2 _ _).trans hk)
  have er : refDot.rhsIdx (ix3 b n m) ((contrEquiv1 refDot 3 rfl rfl).symm k) = ix3 b m k := funext fun a => Fin.ext (by
    match a with
    | ⟨0, _⟩ => exact rhs_ax0 _ _
    | ⟨1, _⟩ => exact rhs_ax1 _ _
    | ⟨2, _⟩ => exact (rhs_ax2 _ _).trans hk)
  rw [el, er]

/-! ## The clamped squared distances -/

/-- A per-point array spread along the last axis reads the point `(b, n)`. -/
theorem spreadRow_apply (v : FVec Ideal S32x2048 .f32) (b : Fin 32) (n m : Fin 2048) :
    broadcastInDim S32x2048x2048 ![0, 1, 2] bcast_S32x2048x1_S32x2048x2048_0_1_2
        (broadcastInDim S32x2048x1 ![0, 1] bcast_S32x2048_S32x2048x1_0_1 v) (ix3 b n m) = v (ix2 b n) := by
  rw [broadcastInDim_apply _ _ _ (ix3 b n m) (ix3 b n (0 : Fin 1)) (fun a => by fin_cases a <;> rfl),
    broadcastInDim_apply _ _ _ (ix3 b n (0 : Fin 1)) (ix2 b n) (fun a => by fin_cases a <;> rfl)]

/-- A per-point array spread along the middle axis reads the point `(b, m)`. -/
theorem spreadCol_apply (v : FVec Ideal S32x2048 .f32) (b : Fin 32) (n m : Fin 2048) :
    broadcastInDim S32x2048x2048 ![0, 1, 2] bcast_S32x1x2048_S32x2048x2048_0_1_2
        (broadcastInDim S32x1x2048 ![0, 2] bcast_S32x2048_S32x1x2048_0_2 v) (ix3 b n m) = v (ix2 b m) := by
  rw [broadcastInDim_apply _ _ _ (ix3 b n m) (ix3 b (0 : Fin 1) m) (fun a => by fin_cases a <;> rfl),
    broadcastInDim_apply _ _ _ (ix3 b (0 : Fin 1) m) (ix2 b m) (fun a => by fin_cases a <;> rfl)]

theorem dist_apply (a0 a1 : FVec Ideal S32x2048x3 .f32) (b : Fin 32) (n m : Fin 2048) :
    RefRun.dist (F := Ideal) a0 a1 (ix3 b n m) = Chamfer.D a0 a1 b n m := by
  unfold RefRun.dist Chamfer.D
  rw [maximumf_apply, subf_apply, addf_apply, mulf_apply, spreadRow_apply, spreadCol_apply,
    broadcastInDim_scalar_apply, broadcastInDim_scalar_apply, constant_apply, constant_apply,
    sqsum_apply, sqsum_apply, dot_apply]

/-! ## The two minima -/

/-- The pair `(b, n)` with coordinate `k` put back on the last axis. -/
theorem liftPair_2 (h : S32x2048x2048.Reduces [2] S32x2048) (b : Fin 32) (n : Fin 2048) (k : Fin (S32x2048x2048.size 2)) :
    h.lift (ix2 b n) k = ix3 b n (⟨k.val, k.isLt⟩ : Fin 2048) := by
  funext c; apply Fin.ext
  fin_cases c <;> rfl

/-- The pair `(b, m)` with coordinate `k` put back on the middle axis. -/
theorem liftPair_1 (h : S32x2048x2048.Reduces [1] S32x2048) (b : Fin 32) (m : Fin 2048) (k : Fin (S32x2048x2048.size 1)) :
    h.lift (ix2 b m) k = ix3 b (⟨k.val, k.isLt⟩ : Fin 2048) m := by
  funext c; apply Fin.ext
  fin_cases c <;> rfl

theorem rowMin_apply (a0 a1 : FVec Ideal S32x2048x3 .f32) (b : Fin 32) (n : Fin 2048) :
    Host.reduce FloatOps.minimumf (RefRun.dist (F := Ideal) a0 a1) (constant (F := Ideal) S_ .f32 0x7F800000#32)
        reducesTo_S32x2048x2048_S32x2048_d2 h_S_ (ix2 b n) = Chamfer.rowMin a0 a1 b n := by
  have h : S32x2048x2048.Reduces [2] S32x2048 := by decide
  unfold Chamfer.rowMin
  rw [Host.reduce_eq_fold_single FloatOps.minimumf _ _ reducesTo_S32x2048x2048_S32x2048_d2 h h_S_, constant_apply]
  have hf : (RefRun.dist (F := Ideal) a0 a1 ∘ h.lift (ix2 b n)) = fun m : Fin 2048 => Chamfer.D a0 a1 b n m :=
    funext fun k => (congrArg (RefRun.dist (F := Ideal) a0 a1) (liftPair_2 h b n k)).trans (dist_apply a0 a1 b n _)
  exact congrArg (fun f => Finset.fold min Chamfer.cTop f (Finset.univ : Finset (Fin 2048))) hf

theorem colMin_apply (a0 a1 : FVec Ideal S32x2048x3 .f32) (b : Fin 32) (m : Fin 2048) :
    Host.reduce FloatOps.minimumf (RefRun.dist (F := Ideal) a0 a1) (constant (F := Ideal) S_ .f32 0x7F800000#32)
        reducesTo_S32x2048x2048_S32x2048_d1 h_S_ (ix2 b m) = Chamfer.colMin a0 a1 b m := by
  have h : S32x2048x2048.Reduces [1] S32x2048 := by decide
  unfold Chamfer.colMin
  rw [Host.reduce_eq_fold_single FloatOps.minimumf _ _ reducesTo_S32x2048x2048_S32x2048_d1 h h_S_, constant_apply]
  have hf : (RefRun.dist (F := Ideal) a0 a1 ∘ h.lift (ix2 b m)) = fun n : Fin 2048 => Chamfer.D a0 a1 b n m :=
    funext fun k => (congrArg (RefRun.dist (F := Ideal) a0 a1) (liftPair_1 h b m k)).trans (dist_apply a0 a1 b _ m)
  exact congrArg (fun f => Finset.fold min Chamfer.cTop f (Finset.univ : Finset (Fin 2048))) hf

/-! ## The mean over the points -/

/-- The entry `b` with coordinate `k` put back on the points' axis. -/
theorem liftEntry (h : S32x2048.Reduces [1] S32) (b : Fin 32) (k : Fin (S32x2048.size 1)) :
    h.lift (ix1 b) k = ix2 b (⟨k.val, k.isLt⟩ : Fin 2048) := by
  funext c; apply Fin.ext
  fin_cases c <;> rfl

theorem meanOf_apply (v : FVec Ideal S32x2048 .f32) (b : Fin 32) :
    RefRun.meanOf (F := Ideal) v (ix1 b) = Ideal.div (Chamfer.cZero + ∑ n : Fin 2048, v (ix2 b n)) Chamfer.c2048 := by
  have h : S32x2048.Reduces [1] S32 := by decide
  unfold RefRun.meanOf
  rw [hostDivf_apply, hostReduceAdd_apply, Ideal.hostReduceAdd_single _ h, broadcastInDim_scalar_apply, constant_apply,
    constant_apply]
  refine congrArg (fun s => Ideal.div (Chamfer.cZero + s) Chamfer.c2048) ?_
  exact Finset.sum_congr rfl fun k _ => congrArg v (liftEntry h b k)

/-! ## softplus, log σ and the cross-entropy -/

theorem zeros_apply (i : S32x2048.Idx) : RefRun.zeros (F := Ideal) i = Chamfer.cZero := by
  unfold RefRun.zeros
  rw [broadcastInDim_scalar_apply, constant_apply]

theorem softplus_apply (x : FVec Ideal S32x2048 .f32) (i : S32x2048.Idx) :
    RefRun.softplus (F := Ideal) x i = Chamfer.spR (x i) := by
  unfold RefRun.softplus Chamfer.spR
  simp only [Host.log1p, Host.exp, Host.negf, Host.absf, select_apply, cmpf_apply, subf_apply, addf_apply, maximumf_apply,
    zeros_apply, Ideal.hostUnary_log1p_def, Ideal.hostUnary_exp_def, Ideal.hostNegf_def, Ideal.hostAbsf_def, Ideal.negf_def,
    Ideal.cmpf_def]

/-- The host's negation at an index is the negation of the element. -/
theorem hostNegf_apply {s : Shape} (x : FVec Ideal s .f32) (i : s.Idx) : Host.negf x i = -(x i) := rfl

theorem logSigmoid_apply (x : FVec Ideal S32x2048 .f32) (i : S32x2048.Idx) :
    RefRun.logSigmoid (F := Ideal) x i = Chamfer.lsR (x i) := by
  unfold RefRun.logSigmoid Chamfer.lsR
  rw [hostNegf_apply, softplus_apply, hostNegf_apply]

theorem bce_apply (a2 a3 : FVec Ideal S32x2048 .f32) (b : Fin 32) :
    RefRun.bce (F := Ideal) a2 a3 (ix1 b) = Chamfer.bceR a2 a3 b := by
  unfold RefRun.bce Chamfer.bceR
  rw [hostNegf_apply, meanOf_apply]
  refine congrArg (fun s => -(Ideal.div (Chamfer.cZero + s) Chamfer.c2048)) ?_
  refine Finset.sum_congr rfl fun n _ => ?_
  unfold Chamfer.bceTermR
  rw [addf_apply, mulf_apply, mulf_apply, subf_apply, broadcastInDim_scalar_apply, constant_apply, logSigmoid_apply,
    logSigmoid_apply, hostNegf_apply]

/-! ## The per-entry value and the mean over the entries -/

/-- The per-entry array of the reference, at entry `b`. -/
theorem perSample_apply (a0 a1 : FVec Ideal S32x2048x3 .f32) (a2 a3 : FVec Ideal S32x2048 .f32) (b : Fin 32) :
    RefRun.perSample (F := Ideal) a0 a1 a2 a3 (ix1 b) = Chamfer.perSampleR a0 a1 a2 a3 b := by
  unfold RefRun.perSample Chamfer.perSampleR RefRun.dist1 RefRun.dist2
  rw [addf_apply, addf_apply, meanOf_apply, meanOf_apply, bce_apply]
  simp only [rowMin_apply, colMin_apply]

theorem refTerm_eq (a0 a1 : FVec Ideal S32x2048x3 .f32) (a2 a3 : FVec Ideal S32x2048 .f32) :
    RefRun.refTerm (F := Ideal) a0 a1 a2 a3
      = Chamfer.tail (fun i => Chamfer.perSampleR a0 a1 a2 a3 (i 0)) reducesTo_S32_S_d0 h_S_ := by
  have e : RefRun.perSample (F := Ideal) a0 a1 a2 a3 = fun i => Chamfer.perSampleR a0 a1 a2 a3 (i 0) := by
    funext i
    obtain ⟨b, rfl⟩ : ∃ b : Fin 32, i = ix1 b := ⟨i 0, eq_ix1 i⟩
    exact perSample_apply a0 a1 a2 a3 b
  unfold RefRun.refTerm Chamfer.tail
  rw [e]

end Cert.ReferenceIdeal.RefValue

end
-- ==== Proof.KerPieces.lean ====
/-
  What each control case of the kernel body leaves in the three carried scratch buffers and in the output block, as the
  body's arithmetic of the point's input blocks and of what the point before left: the stores the case's run found,
  read back as one value each.

  Every store of the body writes a whole buffer and every load reads a whole buffer, so what a buffer ends holding is
  the payload of its last store, and a load reads the contents as they stand: an input block, what the point before
  left, or, when the same run has already stored into the buffer, that store's payload. In the first tile of an entry
  the running minimum and the running sum are first reset (to +∞ and to 0) and then updated, so the update's load reads
  the reset value; in the last tile the output block is computed from the minimum and the sum just stored.
-/
import proofs.«179467_j9689446220325_1_alg».proof.Proof.Gen.KernelIdeal.Frame
import Idealize.ShloMosaic.Lib.Pipeline.Value

set_option maxRecDepth 16384

noncomputable section

namespace Cert.KernelIdeal.KerPieces

open Cert.KernelIdeal Cert.KernelIdeal.Gen Idealize.ShloMosaic Idealize.ShloMosaic.TcCoe Idealize.ShloMosaic.Tactic Idealize.SL.Sem

variable {F : FTy → Type} [FloatOps F]

/-- Every store and load of the body goes through the whole of its buffer: the offsets of a two-axis access are all zero. -/
theorem offs2_zero : (![0, 0] : Fin 2 → Nat) = fun _ => 0 := funext fun a => by fin_cases a <;> rfl

/-- The same for a three-axis access. -/
theorem offs3_zero : (![0, 0, 0] : Fin 3 → Nat) = fun _ => 0 := funext fun a => by fin_cases a <;> rfl

/-- Case A, scratch `arg7`: reset to +∞, then the running minimum with this tile's row minima. -/
theorem sout0_A_0_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2048x3 .f32) (x1 : Vec F S1x512x3 .f32) (x2 : Vec F S1x2048x1 .f32) (x3 : Vec F S1x2048x1 .f32) :
    sout0_A_0 c i arg2 harg2 arg3 harg3 arg4 harg4 arg5 harg5 arg6 harg6 arg7 harg7 arg8 harg8 arg9 harg9 hc0 hc1 x0 x1 x2 x3 = k0_pay14 x0 x1 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) offs2_zero, View.readCov_unit_zero (S := S2048x1) _ offs2_zero]
  simp only [View.readAt_eq_ld, harg2.read_unread, harg3.read_unread, View.ld_unit_zero (S := S1x2048x3) offs3_zero, View.ld_unit_zero (S := S1x512x3) offs3_zero]

/-- Case A, scratch `arg8`: reset to 0, then this tile's sum of column minima added. -/
theorem sout0_A_1_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2048x3 .f32) (x1 : Vec F S1x512x3 .f32) (x2 : Vec F S1x2048x1 .f32) (x3 : Vec F S1x2048x1 .f32) :
    sout0_A_1 c i arg2 harg2 arg3 harg3 arg4 harg4 arg5 harg5 arg6 harg6 arg7 harg7 arg8 harg8 arg9 harg9 hc0 hc1 x0 x1 x2 x3 = k0_pay1 (k0_pay15 x0 x1) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) offs2_zero, View.readCov_unit_zero (S := S1x1) _ offs2_zero]
  simp only [View.readAt_eq_ld, harg2.read_unread, harg3.read_unread, View.ld_unit_zero (S := S1x2048x3) offs3_zero, View.ld_unit_zero (S := S1x512x3) offs3_zero]

/-- Case A, scratch `arg9`: minus the mean cross-entropy of the entry's labels. -/
theorem sout0_A_2_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2048x3 .f32) (x1 : Vec F S1x512x3 .f32) (x2 : Vec F S1x2048x1 .f32) (x3 : Vec F S1x2048x1 .f32) :
    sout0_A_2 c i arg2 harg2 arg3 harg3 arg4 harg4 arg5 harg5 arg6 harg6 arg7 harg7 arg8 harg8 arg9 harg9 hc0 hc1 x0 x1 x2 x3 = k0_pay12 (k0_pay6 x3) (k0_pay7 x2) (k0_pay8 x2) (Scalar.ofBits .f32 0x00000000#32) (k0_pay9 x2) (k0_pay10 x2) (k0_pay11 x2) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero (S := S1x1) offs2_zero]
  simp only [View.readAt_eq_ld, harg4.read_unread, harg5.read_unread, View.ld_unit_zero (S := S1x2048x1) offs3_zero]

/-- Case B, scratch `arg7`: the running minimum with this tile's row minima. -/
theorem sout0_B_0_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2048x3 .f32) (x1 : Vec F S1x512x3 .f32) (x2 : Vec F S1x2048x1 .f32) (x3 : Vec F S1x2048x1 .f32) (xs0 : Vec F S2048x1 .f32) (xs1 : Vec F S1x1 .f32) (xs2 : Vec F S1x1 .f32) :
    sout0_B_0 c i arg2 harg2 arg3 harg3 arg4 harg4 arg5 harg5 arg6 harg6 arg7 harg7 arg8 harg8 arg9 harg9 hc0 hc1 x0 x1 x2 x3 xs0 xs1 xs2 = k0_pay14 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S2048x1) offs2_zero]
  simp only [View.readAt_eq_ld, harg2.read_unread, harg3.read_unread, harg7.read_unread, View.ld_unit_zero (S := S1x2048x3) offs3_zero, View.ld_unit_zero (S := S1x512x3) offs3_zero, View.ld_unit_zero (S := S2048x1) offs2_zero]

/-- Case B, scratch `arg8`: this tile's sum of column minima added. -/
theorem sout0_B_1_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2048x3 .f32) (x1 : Vec F S1x512x3 .f32) (x2 : Vec F S1x2048x1 .f32) (x3 : Vec F S1x2048x1 .f32) (xs0 : Vec F S2048x1 .f32) (xs1 : Vec F S1x1 .f32) (xs2 : Vec F S1x1 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay15 x0 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1x1) offs2_zero]
  simp only [View.readAt_eq_ld, harg2.read_unread, harg3.read_unread, harg8.read_unread, View.ld_unit_zero (S := S1x2048x3) offs3_zero, View.ld_unit_zero (S := S1x512x3) offs3_zero, View.ld_unit_zero (S := S1x1) offs2_zero]

/-- Case C, scratch `arg7`: the running minimum with this tile's row minima. -/
theorem sout0_C_0_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x3 .f32) (x1 : Vec F S1x512x3 .f32) (x2 : Vec F S1x2048x1 .f32) (x3 : Vec F S1x2048x1 .f32) (xs0 : Vec F S2048x1 .f32) (xs1 : Vec F S1x1 .f32) (xs2 : Vec F S1x1 .f32) :
    sout0_C_0 c i arg2 harg2 arg3 harg3 arg4 harg4 arg5 harg5 arg6 harg6 arg7 harg7 arg8 harg8 arg9 harg9 hc0 hc1 x0 x1 x2 x3 xs0 xs1 xs2 = k0_pay14 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S2048x1) offs2_zero]
  simp only [View.readAt_eq_ld, harg2.read_unread, harg3.read_unread, harg7.read_unread, View.ld_unit_zero (S := S1x2048x3) offs3_zero, View.ld_unit_zero (S := S1x512x3) offs3_zero, View.ld_unit_zero (S := S2048x1) offs2_zero]

/-- Case C, scratch `arg8`: this tile's sum of column minima added. -/
theorem sout0_C_1_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x3 .f32) (x1 : Vec F S1x512x3 .f32) (x2 : Vec F S1x2048x1 .f32) (x3 : Vec F S1x2048x1 .f32) (xs0 : Vec F S2048x1 .f32) (xs1 : Vec F S1x1 .f32) (xs2 : Vec F S1x1 .f32) :
    sout0_C_1 c i arg2 harg2 arg3 harg3 arg4 harg4 arg5 harg5 arg6 harg6 arg7 harg7 arg8 harg8 arg9 harg9 hc0 hc1 x0 x1 x2 x3 xs0 xs1 xs2 = k0_pay1 (k0_pay15 x0 x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1x1) offs2_zero]
  simp only [View.readAt_eq_ld, harg2.read_unread, harg3.read_unread, harg8.read_unread, View.ld_unit_zero (S := S1x2048x3) offs3_zero, View.ld_unit_zero (S := S1x512x3) offs3_zero, View.ld_unit_zero (S := S1x1) offs2_zero]

/-- Case C, the output block: the two means and the cross-entropy term of the finished accumulators. -/
theorem out0_C_4_eq (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x3 .f32) (x1 : Vec F S1x512x3 .f32) (x2 : Vec F S1x2048x1 .f32) (x3 : Vec F S1x2048x1 .f32) (xs0 : Vec F S2048x1 .f32) (xs1 : Vec F S1x1 .f32) (xs2 : Vec F S1x1 .f32) :
    out0_C_4 c i arg2 harg2 arg3 harg3 arg4 harg4 arg5 harg5 arg6 harg6 arg7 harg7 arg8 harg8 arg9 harg9 hc0 hc1 x0 x1 x2 x3 xs0 xs1 xs2 = k0_pay2 (k0_pay14 x0 x1 xs0) (k0_pay1 (k0_pay15 x0 x1) xs1) xs2 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1x1x1) offs3_zero]
  simp only [View.readAt_eq_ld, harg2.read_unread, harg3.read_unread, harg7.read_unread, harg8.read_unread, harg9.read_unread, View.ld_unit_zero (S := S1x2048x3) offs3_zero, View.ld_unit_zero (S := S1x512x3) offs3_zero, View.ld_unit_zero (S := S2048x1) offs2_zero, View.ld_unit_zero (S := S1x1) offs2_zero, View.readCov_unit_zero (S := S2048x1) _ offs2_zero, View.readCov_unit_zero (S := S1x1) _ offs2_zero]

end Cert.KernelIdeal.KerPieces

end
-- ==== Proof.KerPay.lean ====
/-
  The kernel body's arithmetic read at an index on the extended reals: the tile of clamped squared distances, the
  running row minimum, the tile's sum of column minima, the accumulating sum, the final combination, and the
  cross-entropy term, each as a plain expression of the entries of the blocks it is computed from.
-/
import proofs.«179467_j9689446220325_1_alg».proof.Proof.Gen.KernelIdeal.Skeleton
import proofs.«179467_j9689446220325_1_alg».proof.Proof.Spec
import Idealize.ShloMosaic.Lib.Pipeline.Value
import Idealize.ShloMosaic.Lib.ValueLayout

noncomputable section

namespace Cert.KernelIdeal.KerPay

open Cert.KernelIdeal Cert.KernelIdeal.Gen Idealize.ShloMosaic Idealize.ShloMosaic.ValueIdx

/-! ## Layout operations and reductions read at an index given by coordinates -/

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the rows of an `[a, c]` array, read at row `n`: the sum over that row's entries. -/
theorem rowSum_apply {a c : ℕ} (src : FVec Ideal ⟨2, ![a, c]⟩ .f32) (h : (⟨2, ![a, c]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ d : Fin c, src (ix2 n d) := by
  refine (Ideal.multiReduction_add_single src 0x00000000#32 h hφ hacc (ix1 n)).trans ?_
  show ∑ k : Fin c, src (h.lift (ix1 n) k) = _
  refine Finset.sum_congr rfl fun k _ => congrArg src ?_
  funext ax
  match ax with
  | ⟨0, _⟩ => rfl
  | ⟨1, _⟩ => rfl

/-- A sum down the columns of an `[a, c]` array, read at column `m`: the sum over that column's entries. -/
theorem colSum_apply {a c : ℕ} (src : FVec Ideal ⟨2, ![a, c]⟩ .f32) (h : (⟨2, ![a, c]⟩ : Shape).Reduces [0] ⟨1, ![c]⟩)
    (hφ : FKind.Formats .f32) (hacc : (0x00000000#32 : BitVec 32) = FKind.add.neutral .f32 hφ) (m : Fin c) :
    multiReduction (F := Ideal) .add [0] ⟨1, ![c]⟩ src 0x00000000#32 h hφ hacc (ix1 m) = ∑ k : Fin a, src (ix2 k m) := by
  refine (Ideal.multiReduction_add_single src 0x00000000#32 h hφ hacc (ix1 m)).trans ?_
  show ∑ k : Fin a, src (h.lift (ix1 m) k) = _
  refine Finset.sum_congr rfl fun k _ => congrArg src ?_
  funext ax
  match ax with
  | ⟨0, _⟩ => rfl
  | ⟨1, _⟩ => rfl

/-! The product's index maps, coordinate by coordinate. -/

theorem lhs_dot_0 (j : S2048x512.Idx) (k : dot_S2048x3_S3x512_S2048x512_1_0_0_1_n_n.contr.Idx) :
    (dot_S2048x3_S3x512_S2048x512_1_0_0_1_n_n.lhsIdx j k 0 : ℕ) = j 0 := by
  simp [DotDims.lhsIdx, dot_S2048x3_S3x512_S2048x512_1_0_0_1_n_n]; rfl

theorem lhs_dot_1 (j : S2048x512.Idx) (k : dot_S2048x3_S3x512_S2048x512_1_0_0_1_n_n.contr.Idx) :
    (dot_S2048x3_S3x512_S2048x512_1_0_0_1_n_n.lhsIdx j k 1 : ℕ) = k ⟨0, by decide⟩ := by
  simp [DotDims.lhsIdx, dot_S2048x3_S3x512_S2048x512_1_0_0_1_n_n]; rfl

theorem rhs_dot_0 (j : S2048x512.Idx) (k : dot_S2048x3_S3x512_S2048x512_1_0_0_1_n_n.contr.Idx) :
    (dot_S2048x3_S3x512_S2048x512_1_0_0_1_n_n.rhsIdx j k 0 : ℕ) = k ⟨0, by decide⟩ := by
  simp [DotDims.rhsIdx, dot_S2048x3_S3x512_S2048x512_1_0_0_1_n_n]; rfl

theorem rhs_dot_1 (j : S2048x512.Idx) (k : dot_S2048x3_S3x512_S2048x512_1_0_0_1_n_n.contr.Idx) :
    (dot_S2048x3_S3x512_S2048x512_1_0_0_1_n_n.rhsIdx j k 1 : ℕ) = j 1 := by
  simp [DotDims.rhsIdx, dot_S2048x3_S3x512_S2048x512_1_0_0_1_n_n]; rfl

/-- The block product read at `(n, r)`: the sum over the three coordinates. -/
theorem mm_apply (lhs : FVec Ideal S2048x3 .f32) (rhs : FVec Ideal S3x512 .f32) (n : Fin 2048) (r : Fin 512) :
    matmul (F := Ideal) dot_S2048x3_S3x512_S2048x512_1_0_0_1_n_n (some .fp32) lhs rhs
        (constant (F := Ideal) S2048x512 .f32 0x00000000#32) (ix2 n r)
      = ∑ d : Fin 3, lhs (ix2 n d) * rhs (ix2 d r) := by
  refine (Ideal.matmul_constant_zero_apply _ _ lhs rhs (ix2 n r)).trans ?_
  rw [← Equiv.sum_comp (contrEquiv1 dot_S2048x3_S3x512_S2048x512_1_0_0_1_n_n 3 rfl rfl).symm]
  refine Finset.sum_congr rfl fun d _ => ?_
  have hl : dot_S2048x3_S3x512_S2048x512_1_0_0_1_n_n.lhsIdx (ix2 n r)
      ((contrEquiv1 dot_S2048x3_S3x512_S2048x512_1_0_0_1_n_n 3 rfl rfl).symm d) = ix2 n d := by
    funext a
    refine Fin.ext ?_
    match a with
    | ⟨0, _⟩ => exact lhs_dot_0 _ _
    | ⟨1, _⟩ => exact (lhs_dot_1 _ _).trans (contrEquiv1_symm_val _ 3 rfl rfl d)
  have hr : dot_S2048x3_S3x512_S2048x512_1_0_0_1_n_n.rhsIdx (ix2 n r)
      ((contrEquiv1 dot_S2048x3_S3x512_S2048x512_1_0_0_1_n_n 3 rfl rfl).symm d) = ix2 d r := by
    funext a
    refine Fin.ext ?_
    match a with
    | ⟨0, _⟩ => exact (rhs_dot_0 _ _).trans (contrEquiv1_symm_val _ 3 rfl rfl d)
    | ⟨1, _⟩ => exact rhs_dot_1 _ _
  rw [hl, hr]

/-- A minimum-reduction over one axis, read at the ideal values: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  classical
  rw [multiReduction_minimumf_eq_fold]; exact h.fold_filter_drop_single _ _ src j

/-- The minimum along the rows of an `[a, c]` array, read at row `n`. -/
theorem rowMin_apply {a c : ℕ} (src : FVec Ideal ⟨2, ![a, c]⟩ .f32) (h : (⟨2, ![a, c]⟩ : Shape).Reduces [1] ⟨1, ![a]⟩)
    (hφ : FKind.Formats .f32) (hacc : (0x7F800000#32 : BitVec 32) = FKind.minimumf.neutral .f32 hφ) (n : Fin a) :
    multiReduction (F := Ideal) .minimumf [1] ⟨1, ![a]⟩ src 0x7F800000#32 h hφ hacc (ix1 n)
      = (Finset.univ : Finset (Fin c)).fold min Chamfer.cTop fun r => src (ix2 n r) := by
  refine (multiReduction_minimumf_single src 0x7F800000#32 h hφ hacc (ix1 n)).trans ?_
  show (Finset.univ : Finset (Fin c)).fold min Chamfer.cTop (src ∘ h.lift (ix1 n)) = _
  refine congrArg (fun f => (Finset.univ : Finset (Fin c)).fold min Chamfer.cTop f) (funext fun k => congrArg src ?_)
  funext ax
  match ax with
  | ⟨0, _⟩ => rfl
  | ⟨1, _⟩ => rfl

/-- The minimum down the columns of an `[a, c]` array, read at column `m`. -/
theorem colMin_apply {a c : ℕ} (src : FVec Ideal ⟨2, ![a, c]⟩ .f32) (h : (⟨2, ![a, c]⟩ : Shape).Reduces [0] ⟨1, ![c]⟩)
    (hφ : FKind.Formats .f32) (hacc : (0x7F800000#32 : BitVec 32) = FKind.minimumf.neutral .f32 hφ) (m : Fin c) :
    multiReduction (F := Ideal) .minimumf [0] ⟨1, ![c]⟩ src 0x7F800000#32 h hφ hacc (ix1 m)
      = (Finset.univ : Finset (Fin a)).fold min Chamfer.cTop fun k => src (ix2 k m) := by
  refine (multiReduction_minimumf_single src 0x7F800000#32 h hφ hacc (ix1 m)).trans ?_
  show (Finset.univ : Finset (Fin a)).fold min Chamfer.cTop (src ∘ h.lift (ix1 m)) = _
  refine congrArg (fun f => (Finset.univ : Finset (Fin a)).fold min Chamfer.cTop f) (funext fun k => congrArg src ?_)
  funext ax
  match ax with
  | ⟨0, _⟩ => rfl
  | ⟨1, _⟩ => rfl

/-! ## The payloads -/

/-- The clamped squared distance between row `n` of the estimated block and row `r` of the ground-truth tile. -/
def dB (x0 : Vec Ideal S1x2048x3 .f32) (x1 : Vec Ideal S1x512x3 .f32) (n : Fin 2048) (r : Fin 512) : EReal :=
  max (((∑ d : Fin 3, x0 (ix3 0 n d) * x0 (ix3 0 n d)) + (∑ d : Fin 3, x1 (ix3 0 r d) * x1 (ix3 0 r d)))
    - Chamfer.cTwo * (∑ d : Fin 3, x0 (ix3 0 n d) * x1 (ix3 0 r d))) Chamfer.cZero

theorem pay13_apply (x0 : Vec Ideal S1x2048x3 .f32) (x1 : Vec Ideal S1x512x3 .f32) (n : Fin 2048) (r : Fin 512) :
    k0_pay13 (F := Ideal) x0 x1 (ix2 n r) = dB x0 x1 n r := by
  unfold k0_pay13 dB
  simp only [maximumf_apply, subf_apply, addf_apply, mulf_apply, broadcast_apply]
  refine congrArg₂ max (congrArg₂ (· - ·) (congrArg₂ (· + ·) ?_ ?_) (congrArg (Chamfer.cTwo * ·) ?_)) rfl
  · refine (broadcastTo_a1_ab_apply _ _ n r).trans ?_
    refine (shapeCast_a_a1_apply _ _ n 0).trans ?_
    refine (rowSum_apply _ _ _ _ n).trans ?_
    refine Finset.sum_congr rfl fun d _ => ?_
    simp only [mulf_apply]
    rw [shapeCast_1ab_ab_apply]
  · refine (broadcastTo_1b_ab_apply _ _ n r).trans ?_
    refine (transpose_ix2_apply _ _ 0 r).trans ?_
    refine (shapeCast_a_a1_apply _ _ r 0).trans ?_
    refine (rowSum_apply _ _ _ _ r).trans ?_
    refine Finset.sum_congr rfl fun d _ => ?_
    simp only [mulf_apply]
    rw [shapeCast_1ab_ab_apply]
  · refine (mm_apply _ _ n r).trans ?_
    refine Finset.sum_congr rfl fun d _ => ?_
    rw [shapeCast_1ab_ab_apply, transpose_ix2_apply, shapeCast_1ab_ab_apply]

theorem pay14_apply (x0 : Vec Ideal S1x2048x3 .f32) (x1 : Vec Ideal S1x512x3 .f32) (acc : Vec Ideal S2048x1 .f32) (n : Fin 2048) :
    k0_pay14 (F := Ideal) x0 x1 acc (ix2 n 0)
      = min (acc (ix2 n 0)) ((Finset.univ : Finset (Fin 512)).fold min Chamfer.cTop fun r => dB x0 x1 n r) := by
  unfold k0_pay14
  simp only [shapeCast_self, minimumf_apply]
  refine congrArg (min (acc (ix2 n 0))) ?_
  refine (shapeCast_a_a1_apply _ _ n 0).trans ?_
  refine (rowMin_apply _ _ _ _ n).trans ?_
  exact congrArg (fun f => (Finset.univ : Finset (Fin 512)).fold min Chamfer.cTop f) (funext fun r => pay13_apply x0 x1 n r)

theorem pay15_apply (x0 : Vec Ideal S1x2048x3 .f32) (x1 : Vec Ideal S1x512x3 .f32) :
    k0_pay15 (F := Ideal) x0 x1 (ix2 0 0)
      = ∑ r : Fin 512, (Finset.univ : Finset (Fin 2048)).fold min Chamfer.cTop fun n => dB x0 x1 n r := by
  unfold k0_pay15
  refine (shapeCast_a_a1_apply _ _ 0 0).trans ?_
  refine (rowSum_apply _ _ _ _ 0).trans ?_
  refine Finset.sum_congr rfl fun r _ => ?_
  refine (shapeCast_a_1a_apply _ _ 0 r).trans ?_
  refine (colMin_apply _ _ _ _ r).trans ?_
  exact congrArg (fun f => (Finset.univ : Finset (Fin 2048)).fold min Chamfer.cTop f) (funext fun n => pay13_apply x0 x1 n r)

theorem pay1_apply (v34 v35 : Vec Ideal S1x1 .f32) :
    k0_pay1 (F := Ideal) v34 v35 (ix2 0 0) = v35 (ix2 0 0) + v34 (ix2 0 0) := by
  unfold k0_pay1
  simp only [shapeCast_self]
  rfl

theorem pay2_apply (v43 : Vec Ideal S2048x1 .f32) (v48 v52 : Vec Ideal S1x1 .f32) :
    k0_pay2 (F := Ideal) v43 v48 v52 (ix3 0 0 0)
      = (Ideal.div (∑ n : Fin 2048, v43 (ix2 n 0)) Chamfer.c2048 + v48 (ix2 0 0) * Chamfer.cInv2048) + v52 (ix2 0 0) := by
  unfold k0_pay2
  refine (shapeCast_ab_1ab_apply _ _ 0 0 0).trans ?_
  simp only [addf_apply, divf_apply, mulf_apply, broadcast_apply]
  refine congrArg (fun t => Ideal.div t Chamfer.c2048 + v48 (ix2 0 0) * Chamfer.cInv2048 + v52 (ix2 0 0)) ?_
  exact (shapeCast_a_a1_apply _ _ 0 0).trans (colSum_apply _ _ _ _ 0)

theorem pay3_apply (n : Fin 2048) : k0_pay3 (F := Ideal) (ix2 n 0) = Chamfer.cTop := by
  unfold k0_pay3
  simp only [shapeCast_self]
  rfl

theorem pay4_apply : k0_pay4 (F := Ideal) (ix2 0 0) = Chamfer.cZero := by
  unfold k0_pay4
  simp only [shapeCast_self]
  rfl

/-- The logits' block with its leading unit axis dropped, read at row `k`. -/
theorem pay5_apply (x : Vec Ideal S1x2048x1 .f32) (k : Fin 2048) : k0_pay5 (F := Ideal) x (ix2 k 0) = x (ix3 0 k 0) := by
  unfold k0_pay5
  exact shapeCast_1ab_ab_apply _ _ k 0

/-- The labels' block with its leading unit axis dropped, read at row `k`. -/
theorem pay6_apply (x : Vec Ideal S1x2048x1 .f32) (k : Fin 2048) : k0_pay6 (F := Ideal) x (ix2 k 0) = x (ix3 0 k 0) := by
  unfold k0_pay6
  exact shapeCast_1ab_ab_apply _ _ k 0

/-- The cross-entropy summand at row `k`. -/
theorem bceTerm_apply (x2 x3 : Vec Ideal S1x2048x1 .f32) (k : Fin 2048) :
    Chamfer.bceTermK (x2 (ix3 0 k 0)) (x3 (ix3 0 k 0))
      = k0_pay6 (F := Ideal) x3 (ix2 k 0) * k0_pay7 (F := Ideal) x2 (ix2 k 0)
        + (Chamfer.cOne - k0_pay6 (F := Ideal) x3 (ix2 k 0))
          * (Chamfer.cZero - Scalar.select (k0_pay11 (F := Ideal) x2 (ix2 k 0)) (k0_pay8 (F := Ideal) x2 (ix2 k 0) + Chamfer.cZero)
              (k0_pay9 (F := Ideal) x2 (ix2 k 0)
                + Ideal.log1p (Ideal.exp (Chamfer.cZero - FloatOps.absf (F := Ideal) (φ := .f32) (k0_pay10 (F := Ideal) x2 (ix2 k 0)))))) := by
  rw [← pay5_apply x2 k, ← pay6_apply x3 k]
  rfl

theorem bce_apply (x2 x3 : Vec Ideal S1x2048x1 .f32) :
    k0_pay12 (F := Ideal) (k0_pay6 x3) (k0_pay7 x2) (k0_pay8 x2) (Scalar.ofBits .f32 0x00000000#32) (k0_pay9 x2) (k0_pay10 x2) (k0_pay11 x2) (ix2 0 0)
      = Chamfer.cZero - Ideal.div (∑ n : Fin 2048, Chamfer.bceTermK (x2 (ix3 0 n 0)) (x3 (ix3 0 n 0))) Chamfer.c2048 := by
  unfold k0_pay12
  simp only [shapeCast_self, subf_apply, divf_apply, broadcast_apply]
  refine congrArg (fun t => Chamfer.cZero - Ideal.div t Chamfer.c2048) ?_
  refine (shapeCast_a_a1_apply _ _ 0 0).trans ?_
  refine (colSum_apply _ _ _ _ 0).trans ?_
  refine Finset.sum_congr rfl fun k _ => ?_
  rw [bceTerm_apply x2 x3 k]
  rfl

end Cert.KernelIdeal.KerPay

end
-- ==== Proof.KerChain.lean ====
/-
  The kernel's value at the extended reals: at the four grid points of a batch entry the running minimum, the running
  sum and the cross-entropy term are what `Chamfer.perSampleK` says, so the output block the last of them writes back is
  the entry's value.
-/
import proofs.«179467_j9689446220325_1_alg».proof.Proof.Gen.KernelIdeal.Frame
import proofs.«179467_j9689446220325_1_alg».proof.Proof.KerPieces
import proofs.«179467_j9689446220325_1_alg».proof.Proof.KerPay
import proofs.«179467_j9689446220325_1_alg».proof.Proof.Spec
import Idealize.ShloMosaic.Lib.Pipeline.Value
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The blocks, at their literal types -/

/-- The estimated points' block at point `t`: the 2048 points of entry `t / 4`. -/
abbrev xb0 (c : Dev nD) (t : Fin cfg0.N) : Vec Ideal S1x2048x3 .f32 := iblk m c 0 t
/-- The ground-truth block at point `t`: tile `t % 4` of entry `t / 4`. -/
abbrev xb1 (c : Dev nD) (t : Fin cfg0.N) : Vec Ideal S1x512x3 .f32 := iblk m c 1 t
/-- The logits' block. -/
abbrev xb2 (c : Dev nD) (t : Fin cfg0.N) : Vec Ideal S1x2048x1 .f32 := iblk m c 2 t
/-- The targets' block. -/
abbrev xb3 (c : Dev nD) (t : Fin cfg0.N) : Vec Ideal S1x2048x1 .f32 := iblk m c 3 t

/-- The argument arrays, as the region finds them. -/
abbrev A0 (c : Dev nD) : Vec Ideal S32x2048x3 .f32 := V m c main_arg0
abbrev A1 (c : Dev nD) : Vec Ideal S32x2048x3 .f32 := V m c main_arg1
abbrev Z (c : Dev nD) : Vec Ideal S32x2048x1 .f32 := V m c main_v0
abbrev T (c : Dev nD) : Vec Ideal S32x2048x1 .f32 := V m c main_v1

/-- The block indices of the five windows, decided over the grid: entry `t / 4`, and for the ground-truth window tile `t % 4`. -/
theorem idx0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)
theorem idx3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)
theorem idx4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

/-- Point `n` of the estimated block at `t` is point `n` of entry `b` of the array, when `t / 4 = b`. -/
theorem xb0_apply (c : Dev nD) (t : Fin cfg0.N) (b : Fin 32) (hb : t.val / 4 = b.val) (n : Fin 2048) (d : Fin 3) :
    xb0 m c t (ix3 0 n d) = A0 m c (ix3 b n d) := by
  unfold xb0 iblk
  rw [View.read_apply]
  show V m c main_arg0 _ = V m c main_arg0 _
  congr 1
  funext a
  apply Fin.ext
  match a with
  | ⟨0, _⟩ => show win0_0.index t 0 * 1 + 1 * 0 = b.val; rw [(idx0 t).1]; omega
  | ⟨1, _⟩ => show win0_0.index t 1 * 2048 + 1 * n.val = n.val; rw [(idx0 t).2.1]; omega
  | ⟨2, _⟩ => show win0_0.index t 2 * 3 + 1 * d.val = d.val; rw [(idx0 t).2.2]; omega

/-- Row `r` of the ground-truth block at `t` is point `r` of tile `j` of entry `b`, when `t = 4 b + j`. -/
theorem xb1_apply (c : Dev nD) (t : Fin cfg0.N) (b : Fin 32) (j : Fin 4) (hb : t.val / 4 = b.val) (hj : t.val % 4 = j.val)
    (r : Fin 512) (d : Fin 3) : xb1 m c t (ix3 0 r d) = A1 m c (ix3 b (Chamfer.tl j r) d) := by
  unfold xb1 iblk
  rw [View.read_apply]
  show V m c main_arg1 _ = V m c main_arg1 _
  congr 1
  funext a
  apply Fin.ext
  match a with
  | ⟨0, _⟩ => show win0_1.index t 0 * 1 + 1 * 0 = b.val; rw [(idx1 t).1]; omega
  | ⟨1, _⟩ => show win0_1.index t 1 * 512 + 1 * r.val = 512 * j.val + r.val; rw [(idx1 t).2.1]; omega
  | ⟨2, _⟩ => show win0_1.index t 2 * 3 + 1 * d.val = d.val; rw [(idx1 t).2.2]; omega

theorem xb2_apply (c : Dev nD) (t : Fin cfg0.N) (b : Fin 32) (hb : t.val / 4 = b.val) (n : Fin 2048) :
    xb2 m c t (ix3 0 n 0) = Z m c (ix3 b n 0) := by
  unfold xb2 iblk
  rw [View.read_apply]
  show V m c main_v0 _ = V m c main_v0 _
  congr 1
  funext a
  apply Fin.ext
  match a with
  | ⟨0, _⟩ => show win0_2.index t 0 * 1 + 1 * 0 = b.val; rw [(idx2 t).1]; omega
  | ⟨1, _⟩ => show win0_2.index t 1 * 2048 + 1 * n.val = n.val; rw [(idx2 t).2.1]; omega
  | ⟨2, _⟩ => show win0_2.index t 2 * 1 + 1 * 0 = 0; rw [(idx2 t).2.2]

theorem xb3_apply (c : Dev nD) (t : Fin cfg0.N) (b : Fin 32) (hb : t.val / 4 = b.val) (n : Fin 2048) :
    xb3 m c t (ix3 0 n 0) = T m c (ix3 b n 0) := by
  unfold xb3 iblk
  rw [View.read_apply]
  show V m c main_v1 _ = V m c main_v1 _
  congr 1
  funext a
  apply Fin.ext
  match a with
  | ⟨0, _⟩ => show win0_3.index t 0 * 1 + 1 * 0 = b.val; rw [(idx3 t).1]; omega
  | ⟨1, _⟩ => show win0_3.index t 1 * 2048 + 1 * n.val = n.val; rw [(idx3 t).2.1]; omega
  | ⟨2, _⟩ => show win0_3.index t 2 * 1 + 1 * 0 = 0; rw [(idx3 t).2.2]

/-- The logits as the region finds them: the label array with a unit axis appended. -/
theorem Z_apply (c : Dev nD) (b : Fin 32) (n : Fin 2048) :
    Z m c (ix3 b n 0) = m ((c : Thread nD τ).loc main_arg2) (ix2 b n) := by
  have e : (V m c main_v0 : S32x2048x1.Idx → EReal)
      = broadcastInDim S32x2048x1 ![0, 1] bcast_S32x2048_S32x2048x1_0_1 (m ((c : Thread nD τ).loc main_arg2)) := by
    show StableHlo.after hostOps0 (fun b => m (c, b)) (Proc.devRef .tc main_v0) = _
    after_results
  show (V m c main_v0 : S32x2048x1.Idx → EReal) (ix3 b n 0) = _
  rw [e]
  exact broadcastInDim_apply _ _ _ _ (ix2 b n) (fun a => by match a with | ⟨0, _⟩ => rfl | ⟨1, _⟩ => rfl)

/-- The targets likewise. -/
theorem T_apply (c : Dev nD) (b : Fin 32) (n : Fin 2048) :
    T m c (ix3 b n 0) = m ((c : Thread nD τ).loc main_arg3) (ix2 b n) := by
  have e : (V m c main_v1 : S32x2048x1.Idx → EReal)
      = broadcastInDim S32x2048x1 ![0, 1] bcast_S32x2048_S32x2048x1_0_1 (m ((c : Thread nD τ).loc main_arg3)) := by
    show StableHlo.after hostOps0 (fun b => m (c, b)) (Proc.devRef .tc main_v1) = _
    after_results
  show (V m c main_v1 : S32x2048x1.Idx → EReal) (ix3 b n 0) = _
  rw [e]
  exact broadcastInDim_apply _ _ _ _ (ix2 b n) (fun a => by match a with | ⟨0, _⟩ => rfl | ⟨1, _⟩ => rfl)

/-! ## What the scratch buffers hold after a point -/

/-- Two spellings of one point. -/
theorem outsAt0_congr (c : Dev nD) {n n' : ℕ} (e : n = n') (h : n < cfg0.N) (h' : n' < cfg0.N) :
    outsAt0 m c n h = outsAt0 m c n' h' := by
  subst e; rfl

/-- At the first tile of an entry the three scratch buffers are reset and filled from the point's blocks alone. -/
theorem at_first (c : Dev nD) (t : Fin cfg0.N) (h0 : t.val % 4 = 0) :
    (outsAt0 m c t.val t.isLt).2.1 = k0_pay14 (F := Ideal) (xb0 m c t) (xb1 m c t) (k0_pay3 (F := Ideal))
    ∧ (outsAt0 m c t.val t.isLt).2.2.1 = k0_pay1 (F := Ideal) (k0_pay15 (F := Ideal) (xb0 m c t) (xb1 m c t)) (k0_pay4 (F := Ideal))
    ∧ (outsAt0 m c t.val t.isLt).2.2.2
        = k0_pay12 (F := Ideal) (k0_pay6 (xb3 m c t)) (k0_pay7 (xb2 m c t)) (k0_pay8 (xb2 m c t)) (Scalar.ofBits .f32 0x00000000#32)
            (k0_pay9 (xb2 m c t)) (k0_pay10 (xb2 m c t)) (k0_pay11 (xb2 m c t)) := by
  have h1 : ¬t.val % 4 = 3 := by omega
  rw [outsAt0_A m c t h0 h1]
  dsimp only
  exact ⟨KerPieces.sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    KerPieces.sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    KerPieces.sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- At a later tile the running minimum and the running sum step from what the point before left; the cross-entropy term is kept. -/
theorem at_later (c : Dev nD) (t : Fin cfg0.N) (h0 : ¬t.val % 4 = 0) :
    (outsAt0 m c t.val t.isLt).2.1 = k0_pay14 (F := Ideal) (xb0 m c t) (xb1 m c t) (outsAt0 m c (t.val - 1) (Nat.lt_of_le_of_lt (Nat.sub_le _ _) t.isLt)).2.1
    ∧ (outsAt0 m c t.val t.isLt).2.2.1 = k0_pay1 (F := Ideal) (k0_pay15 (F := Ideal) (xb0 m c t) (xb1 m c t)) (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  by_cases h1 : t.val % 4 = 3
  · rw [outsAt0_C m c t h0 h1]
    dsimp only
    exact ⟨KerPieces.sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _,
      KerPieces.sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _, rfl⟩
  · rw [outsAt0_B m c t h0 h1]
    dsimp only
    exact ⟨KerPieces.sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) _ _ _,
      KerPieces.sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) _ _ _, rfl⟩

/-- At the last tile the output block is the combination of the three finished accumulators. -/
theorem at_last (c : Dev nD) (t : Fin cfg0.N) (h1 : t.val % 4 = 3) :
    (outsAt0 m c t.val t.isLt).1
      = k0_pay2 (F := Ideal) (k0_pay14 (F := Ideal) (xb0 m c t) (xb1 m c t) (outsAt0 m c (t.val - 1) (Nat.lt_of_le_of_lt (Nat.sub_le _ _) t.isLt)).2.1)
          (k0_pay1 (F := Ideal) (k0_pay15 (F := Ideal) (xb0 m c t) (xb1 m c t)) (outsAt0 m c (t.val - 1) (Nat.lt_of_le_of_lt (Nat.sub_le _ _) t.isLt)).2.2.1) (outsAt0 m c (t.val - 1) (Nat.lt_of_le_of_lt (Nat.sub_le _ _) t.isLt)).2.2.2 := by
  have h0 : ¬t.val % 4 = 0 := by omega
  rw [outsAt0_C m c t h0 h1]
  dsimp only
  exact KerPieces.out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

/-! ## The accumulators read at an index -/

/-- Point `4 b + j` of the grid: tile `j` of entry `b`. -/
def pt (b : Fin 32) (j : Fin 4) : Fin cfg0.N := ⟨4 * b.val + j.val, by rw [show cfg0.N = 128 from N_0]; omega⟩

theorem pt_div (b : Fin 32) (j : Fin 4) : (pt b j).val / 4 = b.val := by show (4 * b.val + j.val) / 4 = b.val; omega
theorem pt_mod (b : Fin 32) (j : Fin 4) : (pt b j).val % 4 = j.val := by show (4 * b.val + j.val) % 4 = j.val; omega

/-- The tile of clamped squared distances the body computes at point `4 b + j` is `D` on tile `j` of entry `b`. -/
theorem dB_eq (c : Dev nD) (t : Fin cfg0.N) (b : Fin 32) (j : Fin 4) (hb : t.val / 4 = b.val) (hj : t.val % 4 = j.val)
    (n : Fin 2048) (r : Fin 512) :
    KerPay.dB (xb0 m c t) (xb1 m c t) n r = Chamfer.D (A0 m c) (A1 m c) b n (Chamfer.tl j r) := by
  unfold KerPay.dB Chamfer.D Chamfer.sq Chamfer.dot
  simp only [xb0_apply m c t b hb, xb1_apply m c t b j hb hj]

/-- One step of the running minimum, at row `n`. -/
theorem row_step (c : Dev nD) (t : Fin cfg0.N) (b : Fin 32) (j : Fin 4) (hb : t.val / 4 = b.val) (hj : t.val % 4 = j.val)
    (acc : Vec Ideal S2048x1 .f32) (n : Fin 2048) :
    k0_pay14 (F := Ideal) (xb0 m c t) (xb1 m c t) acc (ix2 n 0)
      = min (acc (ix2 n 0)) (Chamfer.rowMinTile (A0 m c) (A1 m c) b n j) := by
  rw [KerPay.pay14_apply (xb0 m c t) (xb1 m c t) acc n]
  unfold Chamfer.rowMinTile
  simp only [dB_eq m c t b j hb hj]

/-- One step of the running sum. -/
theorem col_step (c : Dev nD) (t : Fin cfg0.N) (b : Fin 32) (j : Fin 4) (hb : t.val / 4 = b.val) (hj : t.val % 4 = j.val)
    (acc : Vec Ideal S1x1 .f32) :
    k0_pay1 (F := Ideal) (k0_pay15 (F := Ideal) (xb0 m c t) (xb1 m c t)) acc (ix2 0 0)
      = acc (ix2 0 0) + Chamfer.colSumTile (A0 m c) (A1 m c) b j := by
  rw [KerPay.pay1_apply, KerPay.pay15_apply (xb0 m c t) (xb1 m c t)]
  unfold Chamfer.colSumTile
  simp only [dB_eq m c t b j hb hj]

/-- The scratch contents after tile `j` of entry `b`. -/
abbrev after (c : Dev nD) (b : Fin 32) (j : Fin 4) := outsAt0 m c (pt b j).val (pt b j).isLt

/-- The point before tile `j + 1` is tile `j`. -/
theorem prev_eq (c : Dev nD) (b : Fin 32) (j j' : Fin 4) (hjj : j'.val = j.val + 1) :
    outsAt0 m c ((pt b j').val - 1) (Nat.lt_of_le_of_lt (Nat.sub_le _ _) (pt b j').isLt) = after m c b j :=
  outsAt0_congr m c (by show 4 * b.val + j'.val - 1 = 4 * b.val + j.val; omega) _ _

/-- The running minimum after the first tile, -/
theorem row0 (c : Dev nD) (b : Fin 32) (n : Fin 2048) :
    (after m c b 0).2.1 (ix2 n 0) = min Chamfer.cTop (Chamfer.rowMinTile (A0 m c) (A1 m c) b n 0) := by
  rw [(at_first m c (pt b 0) (pt_mod b 0)).1, row_step m c (pt b 0) b 0 (pt_div b 0) (pt_mod b 0), KerPay.pay3_apply]

/-- and after each later one. -/
theorem row_succ (c : Dev nD) (b : Fin 32) (j j' : Fin 4) (hjj : j'.val = j.val + 1) (n : Fin 2048) :
    (after m c b j').2.1 (ix2 n 0) = min ((after m c b j).2.1 (ix2 n 0)) (Chamfer.rowMinTile (A0 m c) (A1 m c) b n j') := by
  rw [(at_later m c (pt b j') (by rw [pt_mod]; omega)).1, row_step m c (pt b j') b j' (pt_div b j') (pt_mod b j'),
    prev_eq m c b j j' hjj]

/-- The running sum after the first tile, -/
theorem col0 (c : Dev nD) (b : Fin 32) :
    (after m c b 0).2.2.1 (ix2 0 0) = Chamfer.cZero + Chamfer.colSumTile (A0 m c) (A1 m c) b 0 := by
  rw [(at_first m c (pt b 0) (pt_mod b 0)).2.1, col_step m c (pt b 0) b 0 (pt_div b 0) (pt_mod b 0), KerPay.pay4_apply]

/-- and after each later one. -/
theorem col_succ (c : Dev nD) (b : Fin 32) (j j' : Fin 4) (hjj : j'.val = j.val + 1) :
    (after m c b j').2.2.1 (ix2 0 0) = (after m c b j).2.2.1 (ix2 0 0) + Chamfer.colSumTile (A0 m c) (A1 m c) b j' := by
  rw [(at_later m c (pt b j') (by rw [pt_mod]; omega)).2.1, col_step m c (pt b j') b j' (pt_div b j') (pt_mod b j'),
    prev_eq m c b j j' hjj]

/-- The cross-entropy term, set at the first tile, -/
theorem bce0 (c : Dev nD) (b : Fin 32) :
    (after m c b 0).2.2.2 (ix2 0 0)
      = Chamfer.bceK (m ((c : Thread nD τ).loc main_arg2)) (m ((c : Thread nD τ).loc main_arg3)) b := by
  rw [(at_first m c (pt b 0) (pt_mod b 0)).2.2, KerPay.bce_apply (xb2 m c (pt b 0)) (xb3 m c (pt b 0))]
  unfold Chamfer.bceK
  simp only [xb2_apply m c (pt b 0) b (pt_div b 0), xb3_apply m c (pt b 0) b (pt_div b 0)]
  refine congrArg (fun s => Chamfer.cZero - Ideal.div s Chamfer.c2048) (Finset.sum_congr rfl fun n _ => ?_)
  rw [Z_apply m c b n, T_apply m c b n]

/-- and kept at every later one. -/
theorem bce_succ (c : Dev nD) (b : Fin 32) (j j' : Fin 4) (hjj : j'.val = j.val + 1) :
    (after m c b j').2.2.2 = (after m c b j).2.2.2 := by
  rw [(at_later m c (pt b j') (by rw [pt_mod]; omega)).2.2, prev_eq m c b j j' hjj]

/-- THE ENTRY'S VALUE: the output block after the last tile of entry `b`. -/
theorem entry_value (c : Dev nD) (b : Fin 32) :
    (after m c b 3).1 (ix3 0 0 0)
      = Chamfer.perSampleK (A0 m c) (A1 m c) (m ((c : Thread nD τ).loc main_arg2)) (m ((c : Thread nD τ).loc main_arg3)) b := by
  rw [at_last m c (pt b 3) (pt_mod b 3), KerPay.pay2_apply, prev_eq m c b 2 3 rfl]
  unfold Chamfer.perSampleK Chamfer.min1K Chamfer.dist2K
  simp only [row_step m c (pt b 3) b 3 (pt_div b 3) (pt_mod b 3), col_step m c (pt b 3) b 3 (pt_div b 3) (pt_mod b 3),
    row_succ m c b 1 2 rfl, row_succ m c b 0 1 rfl, row0, col_succ m c b 1 2 rfl, col_succ m c b 0 1 rfl, col0,
    bce_succ m c b 1 2 rfl, bce_succ m c b 0 1 rfl, bce0]

end Cert.KernelIdeal.KerValue

end
-- ==== Proof.KerFinal.lean ====
/-
  The kernel's run read as a value: the output window's array ends holding, at entry `b`, the value its last tile's
  point wrote back; the host operations after the region reshape it, sum the 32 entries from 0 and divide by 32.
-/
import proofs.«179467_j9689446220325_1_alg».proof.Proof.KerChain

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The per-entry value of the launch contents of the four arguments. -/
abbrev val (c : Dev nD) (b : Fin 32) : EReal :=
  Chamfer.perSampleK (m ((c : Thread nD τ).loc main_arg0)) (m ((c : Thread nD τ).loc main_arg1))
    (m ((c : Thread nD τ).loc main_arg2)) (m ((c : Thread nD τ).loc main_arg3)) b

/-- What the output window's array holds after the run: at entry `b`, that entry's value. -/
def G (c : Dev nD) : Vec Ideal S32x1x1 .f32 := fun i => val m c ⟨(i 0).val, (i 0).isLt⟩

theorem entry_value' (c : Dev nD) (b : Fin 32) : (after m c b 3).1 (ix3 0 0 0) = val m c b := by
  rw [entry_value m c b]
  show Chamfer.perSampleK (V m c main_arg0) (V m c main_arg1) _ _ b = _
  rw [V_main_arg0 m c, V_main_arg1 m c]

/-- The write-back at the last tile of an entry writes that entry's value. -/
theorem flushed_eq (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  have hN : cfg0.N = 128 := N_0
  obtain ⟨b, rfl⟩ : ∃ b : Fin 32, t = pt b 3 :=
    ⟨⟨t.val / 4, by have := t.isLt; omega⟩, Fin.ext (by show t.val = 4 * (t.val / 4) + 3; omega)⟩
  show (cfg0.win 4).cut (grid0.coords (pt b 3)) ((dats m 0 c).after 4 (pt b 3)) = _
  rw [after0_4]
  funext y
  rw [View.read_apply]
  show (outsAt0 m c (pt b 3).val (pt b 3).isLt).1 ((cfg0.win 4).xinj (grid0.coords (pt b 3)) y)
    = G m c (((cfg0.win 4).blk (pt b 3)).view.emb y)
  have hx : ((cfg0.win 4).xinj (grid0.coords (pt b 3)) y : S1x1x1.Idx) = ix3 0 0 0 := funext fun a => Fin.ext (by
    match a with
    | ⟨0, _⟩ => have h : ((cfg0.win 4).xinj (grid0.coords (pt b 3)) y (0 : Fin 3)).val < 1 := ((cfg0.win 4).xinj (grid0.coords (pt b 3)) y (0 : Fin 3)).isLt
                show ((cfg0.win 4).xinj (grid0.coords (pt b 3)) y (0 : Fin 3)).val = 0; omega
    | ⟨1, _⟩ => have h : ((cfg0.win 4).xinj (grid0.coords (pt b 3)) y (1 : Fin 3)).val < 1 := ((cfg0.win 4).xinj (grid0.coords (pt b 3)) y (1 : Fin 3)).isLt
                show ((cfg0.win 4).xinj (grid0.coords (pt b 3)) y (1 : Fin 3)).val = 0; omega
    | ⟨2, _⟩ => have h : ((cfg0.win 4).xinj (grid0.coords (pt b 3)) y (2 : Fin 3)).val < 1 := ((cfg0.win 4).xinj (grid0.coords (pt b 3)) y (2 : Fin 3)).isLt
                show ((cfg0.win 4).xinj (grid0.coords (pt b 3)) y (2 : Fin 3)).val = 0; omega)
  refine (congrArg (outsAt0 m c (pt b 3).val (pt b 3).isLt).1 hx).trans ?_
  refine (entry_value' m c b).trans ?_
  unfold G
  refine congrArg (val m c) (Fin.ext ?_)
  show b.val = ((win0_4.rect (pt b 3)).emb y (0 : Fin 3)).val
  rw [Pipeline.Window.rect_emb_val, (idx4 (pt b 3)).1, pt_div]
  have h : (y (0 : Fin 3)).val < 1 := (y (0 : Fin 3)).isLt
  show b.val = b.val * 1 + (y (0 : Fin 3)).val
  omega

/-- The output window's blocks have one element on every axis, at every point. -/
theorem xsize4 : ∀ (t : Fin cfg0.N) (a : Fin 3), win0_4.xsize (grid0.coords t) a = 1 :=
  (by decide +kernel : ∀ (t : Fin grid0.N) (a : Fin 3), win0_4.xsize (grid0.coords t) a = 1)

/-- So the output window's array ends holding every entry's value: entry `b` is covered by the last tile's point of `b`. -/
theorem final (c : Dev nD) : (dats m 0 c).arrAt 4 cfg0.N = G m c :=
  (dats m 0 c).arrAt_eq_of_cover 4 (G m c) (flushed_eq m c) fun i =>
    ⟨pt ⟨(i 0).val, (i 0).isLt⟩ 3, (flush0_4 _).mpr (pt_mod _ 3), by
      show i ∈ ((View.whole main_v2).slice (win0_4.rect (pt ⟨(i 0).val, (i 0).isLt⟩ 3))).set
      rw [View.set_slice_whole, Rect.mem_set_unit]
      intro a
      have h0 : (i 0 : Nat) < 32 := (i 0).isLt
      have h1 : (i 1 : Nat) < 1 := (i 1).isLt
      have h2 : (i 2 : Nat) < 1 := (i 2).isLt
      match a with
      | ⟨0, _⟩ =>
        show win0_4.index (pt ⟨(i 0).val, (i 0).isLt⟩ 3) 0 * win0_4.size 0 ≤ (i 0 : Nat)
          ∧ (i 0 : Nat) < win0_4.index (pt ⟨(i 0).val, (i 0).isLt⟩ 3) 0 * win0_4.size 0 + win0_4.xsize (grid0.coords (pt ⟨(i 0).val, (i 0).isLt⟩ 3)) 0
        rw [(idx4 _).1, pt_div, xsize4, show win0_4.size 0 = 1 from rfl]; dsimp only; omega
      | ⟨1, _⟩ =>
        show win0_4.index (pt ⟨(i 0).val, (i 0).isLt⟩ 3) 1 * win0_4.size 1 ≤ (i 1 : Nat)
          ∧ (i 1 : Nat) < win0_4.index (pt ⟨(i 0).val, (i 0).isLt⟩ 3) 1 * win0_4.size 1 + win0_4.xsize (grid0.coords (pt ⟨(i 0).val, (i 0).isLt⟩ 3)) 1
        rw [(idx4 _).2.1, xsize4]; omega
      | ⟨2, _⟩ =>
        show win0_4.index (pt ⟨(i 0).val, (i 0).isLt⟩ 3) 2 * win0_4.size 2 ≤ (i 2 : Nat)
          ∧ (i 2 : Nat) < win0_4.index (pt ⟨(i 0).val, (i 0).isLt⟩ 3) 2 * win0_4.size 2 + win0_4.xsize (grid0.coords (pt ⟨(i 0).val, (i 0).isLt⟩ 3)) 2
        rw [(idx4 _).2.2, xsize4]; omega⟩

/-- The host operations after the region leave, in the result buffer, the mean of the 32 entries' values. -/
theorem tail_eq (c : Dev nD) :
    Pipeline.afterTail₀ cfgs (dats m) 0 (V0 m) [hostOps1] c main_v5
      = Chamfer.tail (fun i => val m c (i 0)) reducesTo_S32_S_d0 h_S_ := by
  unfold Pipeline.afterTail₀
  show StableHlo.after hostOps1 _ (Proc.devRef .tc main_v5) = _
  after_results
  unfold Chamfer.tail
  refine congrArg (fun v => Host.divf (F := Ideal) (Host.reduceAdd (F := Ideal) v (constant (F := Ideal) S_ .f32 0x00000000#32) reducesTo_S32_S_d0 h_S_)
    (constant (F := Ideal) S_ .f32 0x42000000#32)) ?_
  funext i
  obtain ⟨b, rfl⟩ : ∃ b : Fin 32, i = ix1 b := ⟨i 0, eq_ix1 i⟩
  have hw := (Pipeline.withArrays_arr spec0 launch0.win.arr_inj c (V0 m c) (fun w => (dats m 0 c).arrAt w cfg0.N) 4).trans (final m c)
  show shapeCast S32 (Pipeline.withArrays spec0 c (V0 m c) (fun w => (dats m 0 c).arrAt w cfg0.N) (Proc.devRef .tc (Pipeline.arrRef spec0 4)))
    shapeCasts_S32x1x1_S32 (ix1 b) = val m c b
  rw [hw]
  refine (shapeCast_apply (G m c) shapeCasts_S32x1x1_S32 (ix1 b) (ix3 b 0 0) ?_).trans rfl
  rw [Shape.rowMajor_val_three, Shape.rowMajor_val_one]
  show (b.val * 1 + 0) * 1 + 0 = b.val
  omega

/-- The run, read: every weakly fair execution ends with the result buffer at the mean of the entries' values and the
    four arguments unchanged. -/
theorem run : θ_run defs (onTc (τ := τ) (main (F := Ideal))) ⟨m, fun _ => 0, ρ⟩ fun r => ∀ c : Dev nD,
      r.2.mem ((c.tc : Thread nD τ).loc main_v5) = Chamfer.tail (fun i => val m c (i 0)) reducesTo_S32_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.lean ====
/-
  The certificate. Both programs compute a loss over 32 entries: for each entry the symmetric chamfer distance between
  two clouds of 2048 points in three coordinates — the mean over the estimated points of the squared distance to the
  nearest ground-truth point, plus the mean over the ground-truth points of the squared distance to the nearest estimated
  point, the squared distance expanded as |p|² + |q|² - 2⟨p, q⟩ and clamped at 0 — plus the mean binary cross-entropy
  of 2048 logits against their targets; the result is the mean over the entries.

  The kernel walks the ground-truth cloud of an entry in four tiles of 512 points over a grid axis and carries, between
  the tiles, the running minimum of each estimated point's distances, the running sum of the tiles' column minima, and the
  cross-entropy term computed at the first tile; at the last tile it combines them. The reference takes every minimum and
  every sum over all 2048 indices at once. On the extended reals a minimum over 2048 indices is the minimum of the four
  tiles' minima, a sum over 2048 indices the sum of the four tiles' sums, a product with 2⁻¹¹ the quotient by 2048, and
  a difference from zero a negation: no other law joins the two sides, and none of them needs finite inputs.

  The three frames: the two kernels' are the generated ones; the reference's is its run with the result dropped. The
  ideal pass rewrote nothing, so `preserves` is trivial. `algebraic`: both runs end with the result buffer at the
  mean over the entries of the per-entry value — the kernel's in the tiled arrangement (`KerValue.run`), the
  reference's in the whole-array arrangement (`RefRun.run`, `RefValue.refTerm_eq`) — and the two arrangements are one
  extended real (`Chamfer.perSampleK_eq`).
-/
import proofs.«179467_j9689446220325_1_alg».proof.Defs
import proofs.«179467_j9689446220325_1_alg».proof.Proof.Gen.Kernel
import proofs.«179467_j9689446220325_1_alg».proof.Proof.Gen.Kernel.Skeleton
import proofs.«179467_j9689446220325_1_alg».proof.Proof.Gen.Kernel.Launch
import proofs.«179467_j9689446220325_1_alg».proof.Proof.Gen.Kernel.Points
import proofs.«179467_j9689446220325_1_alg».proof.Proof.Gen.Kernel.Frame
import proofs.«179467_j9689446220325_1_alg».proof.Proof.Gen.KernelIdeal
import proofs.«179467_j9689446220325_1_alg».proof.Proof.Gen.KernelIdeal.Skeleton
import proofs.«179467_j9689446220325_1_alg».proof.Proof.Gen.KernelIdeal.Launch
import proofs.«179467_j9689446220325_1_alg».proof.Proof.Gen.KernelIdeal.Points
import proofs.«179467_j9689446220325_1_alg».proof.Proof.Gen.KernelIdeal.Frame
import proofs.«179467_j9689446220325_1_alg».proof.Proof.Gen.ReferenceIdeal
import proofs.«179467_j9689446220325_1_alg».proof.Proof.Gen.Pre_finite_inputs
import proofs.«179467_j9689446220325_1_alg».proof.Proof.Math
import proofs.«179467_j9689446220325_1_alg».proof.Proof.RefRun
import proofs.«179467_j9689446220325_1_alg».proof.Proof.RefValue
import proofs.«179467_j9689446220325_1_alg».proof.Proof.KerFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both runs end at the mean over the entries of the per-entry value of arguments that agree; the tiled and the
    whole-array arrangement of that value are one extended real. -/
theorem algebraic : Cert.algebraic_KernelIdeal_ReferenceIdeal := by
  intro m ρ m' ρ' _ hagree
  refine ⟨fun c => Chamfer.tail (fun i => Cert.KernelIdeal.KerValue.val m c (i 0))
    Cert.KernelIdeal.Gen.reducesTo_S32_S_d0 Cert.KernelIdeal.Gen.h_S_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2, Cert.ReferenceIdeal.RefValue.refTerm_eq]
  exact congrArg (fun v => Chamfer.tail v Cert.KernelIdeal.Gen.reducesTo_S32_S_d0 Cert.KernelIdeal.Gen.h_S_)
    (funext fun i => (Chamfer.perSampleK_eq _ _ _ _ (i 0)).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
